-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x48x48 : Shape := ⟨4, ![8, 128, 48, 48]⟩
abbrev S8x48x48x2 : Shape := ⟨4, ![8, 48, 48, 2]⟩
abbrev S_ : Shape := ⟨0, ![]⟩

class Facts : Prop where
  bcast_S_S8x128x48x48 : S_.BroadcastsInDim S8x128x48x48 (![] : Fin 0 → Fin S8x128x48x48.rank)
  reducesTo_S8x128x48x48_S_d0_1_2_3 : S8x128x48x48.ReducesTo [0, 1, 2, 3] S_
  h_S_ : 0 < S_.numel
  bcast_S_S8x48x48x2 : S_.BroadcastsInDim S8x48x48x2 (![] : Fin 0 → Fin S8x48x48x2.rank)
  reducesTo_S8x48x48x2_S_d0_1_2_3 : S8x48x48x2.ReducesTo [0, 1, 2, 3] S_

variable [Facts]

def fn {F : FTy → Type} [FloatOps F] (main_arg0 : FVec F S8x128x48x48 .f32) (main_arg1 : FVec F S8x48x48x2 .f32) : IVec S_ 1 :=
  let main_v0 : FVec F S8x128x48x48 .f32 := Host.absf main_arg0
  let main_cst : FVec F S_ .f32 := constant S_ .f32 0x7F800000#32
  let main_v1 : FVec F S8x128x48x48 .f32 := broadcastInDim S8x128x48x48 ![] bcast_S_S8x128x48x48 main_cst
  let main_v2 : IVec S8x128x48x48 1 := cmpf .olt main_v0 main_v1
  let main_c : IVec S_ 1 := constantI S_ 1 1#1
  let main_v3 : IVec S_ 1 := (fun x v => Host.reduce IntOp.andi x v reducesTo_S8x128x48x48_S_d0_1_2_3 h_S_) main_v2 main_c
  let main_v4 : FVec F S8x48x48x2 .f32 := Host.absf main_arg1
  let main_cst_0 : FVec F S_ .f32 := constant S_ .f32 0x7F800000#32
  let main_v5 : FVec F S8x48x48x2 .f32 := broadcastInDim S8x48x48x2 ![] bcast_S_S8x48x48x2 main_cst_0
  let main_v6 : IVec S8x48x48x2 1 := cmpf .olt main_v4 main_v5
  let main_c_1 : IVec S_ 1 := constantI S_ 1 1#1
  let main_v7 : IVec S_ 1 := (fun x v => Host.reduce IntOp.andi x v reducesTo_S8x48x48x2_S_d0_1_2_3 h_S_) main_v6 main_c_1
  let main_v8 : IVec S_ 1 := andi main_v3 main_v7
  main_v8
-- ==== Kernel.lean ====
abbrev S8x128x48x48 : Shape := ⟨4, ![8, 128, 48, 48]⟩
abbrev S8x48x48x2 : Shape := ⟨4, ![8, 48, 48, 2]⟩
abbrev S4x2 : Shape := ⟨2, ![4, 2]⟩
abbrev S8x48x48x1 : Shape := ⟨4, ![8, 48, 48, 1]⟩
abbrev S8x48x48 : Shape := ⟨3, ![8, 48, 48]⟩
abbrev S_ : Shape := ⟨0, ![]⟩
abbrev S48x48 : Shape := ⟨2, ![48, 48]⟩
abbrev S2304 : Shape := ⟨1, ![2304]⟩
abbrev S8x2304x2 : Shape := ⟨3, ![8, 2304, 2]⟩
abbrev S8x2304x1 : Shape := ⟨3, ![8, 2304, 1]⟩
abbrev S8x2304 : Shape := ⟨2, ![8, 2304]⟩
abbrev S8x2304x1x2 : Shape := ⟨4, ![8, 2304, 1, 2]⟩
abbrev S1x1x4x2 : Shape := ⟨4, ![1, 1, 4, 2]⟩
abbrev S8x2304x4x2 : Shape := ⟨4, ![8, 2304, 4, 2]⟩
abbrev S8x2304x4x1 : Shape := ⟨4, ![8, 2304, 4, 1]⟩
abbrev S8x2304x4 : Shape := ⟨3, ![8, 2304, 4]⟩
abbrev S1x2304x1 : Shape := ⟨3, ![1, 2304, 1]⟩
abbrev S8x2304x2304 : Shape := ⟨3, ![8, 2304, 2304]⟩
abbrev S8 : Shape := ⟨1, ![8]⟩
abbrev S8x1x1 : Shape := ⟨3, ![8, 1, 1]⟩
abbrev S8x2304x4x3 : Shape := ⟨4, ![8, 2304, 4, 3]⟩
abbrev S8x128x2304 : Shape := ⟨3, ![8, 128, 2304]⟩
abbrev S1x128x2304 : Shape := ⟨3, ![1, 128, 2304]⟩
abbrev S1x2304x2304 : Shape := ⟨3, ![1, 2304, 2304]⟩
abbrev S128x2304 : Shape := ⟨2, ![128, 2304]⟩
abbrev S2304x2304 : Shape := ⟨2, ![2304, 2304]⟩

abbrev nBuf : Space → Nat
  | .hbm => 143
  | .vmem => 6
  | .smem => 0
  | _ => 0

abbrev hbmTy0_0 (i : Nat) : BufTy := match i % 128 with
  | 0 => ⟨S8x128x48x48, .f32⟩
  | 1 => ⟨S8x48x48x2, .f32⟩
  | 2 => ⟨S4x2, .f32⟩
  | 3 => ⟨S8x48x48x1, .f32⟩
  | 4 => ⟨S8x48x48, .f32⟩
  | 5 => ⟨S_, .f32⟩
  | 6 => ⟨S8x48x48, .f32⟩
  | 7 => ⟨S8x48x48, .i1⟩
  | 8 => ⟨S_, .i1⟩
  | 9 => ⟨S48x48, .i1⟩
  | 10 => ⟨S8x48x48x1, .f32⟩
  | 11 => ⟨S8x48x48, .f32⟩
  | 12 => ⟨S_, .f32⟩
  | 13 => ⟨S8x48x48, .f32⟩
  | 14 => ⟨S8x48x48, .i1⟩
  | 15 => ⟨S_, .i1⟩
  | 16 => ⟨S48x48, .i1⟩
  | 17 => ⟨S48x48, .i1⟩
  | 18 => ⟨S8x48x48x1, .f32⟩
  | 19 => ⟨S8x48x48, .f32⟩
  | 20 => ⟨S_, .f32⟩
  | 21 => ⟨S8x48x48, .f32⟩
  | 22 => ⟨S8x48x48, .i1⟩
  | 23 => ⟨S_, .i1⟩
  | 24 => ⟨S48x48, .i1⟩
  | 25 => ⟨S8x48x48x1, .f32⟩
  | 26 => ⟨S8x48x48, .f32⟩
  | 27 => ⟨S_, .f32⟩
  | 28 => ⟨S8x48x48, .f32⟩
  | 29 => ⟨S8x48x48, .i1⟩
  | 30 => ⟨S_, .i1⟩
  | 31 => ⟨S48x48, .i1⟩
  | 32 => ⟨S48x48, .i1⟩
  | 33 => ⟨S48x48, .i1⟩
  | 34 => ⟨S2304, .i1⟩
  | 35 => ⟨S8x2304x2, .f32⟩
  | 36 => ⟨S8x2304x1, .f32⟩
  | 37 => ⟨S8x2304, .f32⟩
  | 38 => ⟨S_, .f32⟩
  | 39 => ⟨S_, .f32⟩
  | 40 => ⟨S_, .f32⟩
  | 41 => ⟨S8x2304, .f32⟩
  | 42 => ⟨S8x2304, .f32⟩
  | 43 => ⟨S_, .f32⟩
  | 44 => ⟨S8x2304, .f32⟩
  | 45 => ⟨S8x2304, .f32⟩
  | 46 => ⟨S8x2304x1, .f32⟩
  | 47 => ⟨S8x2304, .f32⟩
  | 48 => ⟨S_, .f32⟩
  | 49 => ⟨S_, .f32⟩
  | 50 => ⟨S_, .f32⟩
  | 51 => ⟨S8x2304, .f32⟩
  | 52 => ⟨S8x2304, .f32⟩
  | 53 => ⟨S_, .f32⟩
  | 54 => ⟨S8x2304, .f32⟩
  | 55 => ⟨S8x2304, .f32⟩
  | 56 => ⟨S8x2304x1, .f32⟩
  | 57 => ⟨S8x2304x1, .f32⟩
  | 58 => ⟨S8x2304x2, .f32⟩
  | 59 => ⟨S8x2304x2, .f32⟩
  | 60 => ⟨S8x2304x1x2, .f32⟩
  | 61 => ⟨S1x1x4x2, .f32⟩
  | 62 => ⟨S8x2304x4x2, .f32⟩
  | 63 => ⟨S8x2304x4x2, .f32⟩
  | 64 => ⟨S8x2304x4x2, .f32⟩
  | 65 => ⟨S8x2304x4x1, .f32⟩
  | 66 => ⟨S8x2304x4, .f32⟩
  | 67 => ⟨S_, .f32⟩
  | 68 => ⟨S8x2304x4, .f32⟩
  | 69 => ⟨S8x2304x4, .f32⟩
  | 70 => ⟨S8x2304x4x1, .f32⟩
  | 71 => ⟨S8x2304x4, .f32⟩
  | 72 => ⟨S8x2304x4, .f32⟩
  | 73 => ⟨S8x2304x4, .i32⟩
  | 74 => ⟨S8x2304x2, .f32⟩
  | 75 => ⟨S8x2304x1, .f32⟩
  | 76 => ⟨S8x2304, .f32⟩
  | 77 => ⟨S8x2304x1, .f32⟩
  | 78 => ⟨S8x2304, .f32⟩
  | 79 => ⟨S_, .f32⟩
  | 80 => ⟨S8x2304, .f32⟩
  | 81 => ⟨S8x2304, .f32⟩
  | 82 => ⟨S_, .f32⟩
  | 83 => ⟨S8x2304, .f32⟩
  | 84 => ⟨S8x2304, .f32⟩
  | 85 => ⟨S8x2304, .f32⟩
  | 86 => ⟨S_, .f32⟩
  | 87 => ⟨S8x2304, .f32⟩
  | 88 => ⟨S8x2304, .f32⟩
  | 89 => ⟨S8x2304, .f32⟩
  | 90 => ⟨S_, .f32⟩
  | 91 => ⟨S8x2304, .f32⟩
  | 92 => ⟨S8x2304, .f32⟩
  | 93 => ⟨S8x2304, .f32⟩
  | 94 => ⟨S8x2304, .f32⟩
  | 95 => ⟨S8x2304x1, .f32⟩
  | 96 => ⟨S8x2304x1, .f32⟩
  | 97 => ⟨S8x2304x1, .f32⟩
  | 98 => ⟨S8x2304x1, .f32⟩
  | 99 => ⟨S8x2304x4, .f32⟩
  | 100 => ⟨S1x2304x1, .i1⟩
  | 101 => ⟨S1x2304x1, .f32⟩
  | 102 => ⟨S8x2304x4, .f32⟩
  | 103 => ⟨S8x2304x4, .f32⟩
  | 104 => ⟨S_, .f32⟩
  | 105 => ⟨S8x2304x2304, .f32⟩
  | 106 => ⟨S8, .i32⟩
  | 107 => ⟨S8x1x1, .i32⟩
  | 108 => ⟨S2304, .i32⟩
  | 109 => ⟨S1x2304x1, .i32⟩
  | 110 => ⟨S_, .i32⟩
  | 111 => ⟨S8x1x1, .i32⟩
  | 112 => ⟨S8x1x1, .i1⟩
  | 113 => ⟨S_, .i32⟩
  | 114 => ⟨S8x1x1, .i32⟩
  | 115 => ⟨S8x1x1, .i32⟩
  | 116 => ⟨S8x1x1, .i32⟩
  | 117 => ⟨S_, .i32⟩
  | 118 => ⟨S1x2304x1, .i32⟩
  | 119 => ⟨S1x2304x1, .i1⟩
  | 120 => ⟨S_, .i32⟩
  | 121 => ⟨S1x2304x1, .i32⟩
  | 122 => ⟨S1x2304x1, .i32⟩
  | 123 => ⟨S1x2304x1, .i32⟩
  | 124 => ⟨S_, .i32⟩
  | 125 => ⟨S8x2304x4, .i32⟩
  | 126 => ⟨S8x2304x4, .i1⟩
  | 127 => ⟨S_, .i32⟩
  | _ => ⟨S8x128x48x48, .f32⟩

abbrev hbmTy0_1 (i : Nat) : BufTy := match i % 128 with
  | 0 => ⟨S8x2304x4, .i32⟩
  | 1 => ⟨S8x2304x4, .i32⟩
  | 2 => ⟨S8x2304x4, .i32⟩
  | 3 => ⟨S8x2304x4, .i32⟩
  | 4 => ⟨S8x2304x4, .i32⟩
  | 5 => ⟨S8x2304x4x1, .i32⟩
  | 6 => ⟨S8x2304x4x1, .i32⟩
  | 7 => ⟨S8x2304x4x1, .i32⟩
  | 8 => ⟨S8x2304x4x3, .i32⟩
  | 9 => ⟨S8x2304x2304, .f32⟩
  | 10 => ⟨S8x128x2304, .f32⟩
  | 11 => ⟨S8x2304x2304, .bf16⟩
  | 12 => ⟨S8x128x2304, .bf16⟩
  | 13 => ⟨S8x128x2304, .f32⟩
  | 14 => ⟨S8x128x48x48, .f32⟩
  | _ => ⟨S8x128x48x48, .f32⟩

abbrev hbmTy (i : Nat) : BufTy := match i / 128 with
  | 0 => hbmTy0_0 i
  | 1 => hbmTy0_1 i
  | _ => ⟨S8x128x48x48, .f32⟩

abbrev bufTy : (tb : Table) → Fin (tcTables nBuf tb) → BufTy
  | .hbm, ⟨i, _⟩ => hbmTy i
  | .local _ .vmem, ⟨0, _⟩ => ⟨S1x128x2304, .bf16⟩
  | .local _ .vmem, ⟨1, _⟩ => ⟨S1x128x2304, .bf16⟩
  | .local _ .vmem, ⟨2, _⟩ => ⟨S1x2304x2304, .bf16⟩
  | .local _ .vmem, ⟨3, _⟩ => ⟨S1x2304x2304, .bf16⟩
  | .local _ .vmem, ⟨4, _⟩ => ⟨S1x128x2304, .f32⟩
  | .local _ .vmem, ⟨5, _⟩ => ⟨S1x128x2304, .f32⟩
  | _, _ => ⟨S8x128x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_cst_8 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_cst_10 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_11 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_cst_13 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_15 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_16 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_19 : Ref sig .tc := ⟨.hbm, 117, rfl⟩
abbrev main_v84 : Ref sig .tc := ⟨.hbm, 118, rfl⟩
abbrev main_v85 : Ref sig .tc := ⟨.hbm, 119, rfl⟩
abbrev main_c_20 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_c_21 : Ref sig .tc := ⟨.hbm, 124, rfl⟩
abbrev main_v89 : Ref sig .tc := ⟨.hbm, 125, rfl⟩
abbrev main_v90 : Ref sig .tc := ⟨.hbm, 126, rfl⟩
abbrev main_c_22 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2304x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S8x48x48x2_S8x48x48x1_0_0_0_0 : S8x48x48x2.Slices ![0, 0, 0, 0] S8x48x48x1
  shapeCasts_S8x48x48x1_S8x48x48 : S8x48x48x1.ShapeCasts S8x48x48
  bcast_S_S8x48x48 : S_.BroadcastsInDim S8x48x48 (![] : Fin 0 → Fin S8x48x48.rank)
  reducesTo_S8x48x48_S48x48_d0 : S8x48x48.ReducesTo [0] S48x48
  h_S_ : 0 < S_.numel
  slices_S8x48x48x2_S8x48x48x1_0_0_0_1 : S8x48x48x2.Slices ![0, 0, 0, 1] S8x48x48x1
  shapeCasts_S48x48_S2304 : S48x48.ShapeCasts S2304
  shapeCasts_S8x48x48x2_S8x2304x2 : S8x48x48x2.ShapeCasts S8x2304x2
  slices_S8x2304x2_S8x2304x1_0_0_0 : S8x2304x2.Slices ![0, 0, 0] S8x2304x1
  shapeCasts_S8x2304x1_S8x2304 : S8x2304x1.ShapeCasts S8x2304
  bcast_S_S8x2304 : S_.BroadcastsInDim S8x2304 (![] : Fin 0 → Fin S8x2304.rank)
  slices_S8x2304x2_S8x2304x1_0_0_1 : S8x2304x2.Slices ![0, 0, 1] S8x2304x1
  bcast_S8x2304_S8x2304x1_0_1 : S8x2304.BroadcastsInDim S8x2304x1 (![0, 1] : Fin 2 → Fin S8x2304x1.rank)
  concatenates_S8x2304x1_S8x2304x1_S8x2304x2_d2 : Shape.Concatenates [S8x2304x1, S8x2304x1] S8x2304x2 2
  bcast_S8x2304x2_S8x2304x1x2_0_1_3 : S8x2304x2.BroadcastsInDim S8x2304x1x2 (![0, 1, 3] : Fin 3 → Fin S8x2304x1x2.rank)
  bcast_S4x2_S1x1x4x2_2_3 : S4x2.BroadcastsInDim S1x1x4x2 (![2, 3] : Fin 2 → Fin S1x1x4x2.rank)
  bcast_S8x2304x1x2_S8x2304x4x2_0_1_2_3 : S8x2304x1x2.BroadcastsInDim S8x2304x4x2 (![0, 1, 2, 3] : Fin 4 → Fin S8x2304x4x2.rank)
  bcast_S1x1x4x2_S8x2304x4x2_0_1_2_3 : S1x1x4x2.BroadcastsInDim S8x2304x4x2 (![0, 1, 2, 3] : Fin 4 → Fin S8x2304x4x2.rank)
  slices_S8x2304x4x2_S8x2304x4x1_0_0_0_0 : S8x2304x4x2.Slices ![0, 0, 0, 0] S8x2304x4x1
  shapeCasts_S8x2304x4x1_S8x2304x4 : S8x2304x4x1.ShapeCasts S8x2304x4
  bcast_S_S8x2304x4 : S_.BroadcastsInDim S8x2304x4 (![] : Fin 0 → Fin S8x2304x4.rank)
  slices_S8x2304x4x2_S8x2304x4x1_0_0_0_1 : S8x2304x4x2.Slices ![0, 0, 0, 1] S8x2304x4x1
  concatenates_S8x2304x1_S8x2304x1_S8x2304x1_S8x2304x1_S8x2304x4_d2 : Shape.Concatenates [S8x2304x1, S8x2304x1, S8x2304x1, S8x2304x1] S8x2304x4 2
  bcast_S2304_S1x2304x1_1 : S2304.BroadcastsInDim S1x2304x1 (![1] : Fin 1 → Fin S1x2304x1.rank)
  bcast_S1x2304x1_S8x2304x4_0_1_2 : S1x2304x1.BroadcastsInDim S8x2304x4 (![0, 1, 2] : Fin 3 → Fin S8x2304x4.rank)
  bcast_S_S8x2304x2304 : S_.BroadcastsInDim S8x2304x2304 (![] : Fin 0 → Fin S8x2304x2304.rank)
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S_S1x2304x1 : S_.BroadcastsInDim S1x2304x1 (![] : Fin 0 → Fin S1x2304x1.rank)
  bcast_S8x1x1_S8x2304x4_0_1_2 : S8x1x1.BroadcastsInDim S8x2304x4 (![0, 1, 2] : Fin 3 → Fin S8x2304x4.rank)
  bcast_S8x2304x4_S8x2304x4x1_0_1_2 : S8x2304x4.BroadcastsInDim S8x2304x4x1 (![0, 1, 2] : Fin 3 → Fin S8x2304x4x1.rank)
  concatenates_S8x2304x4x1_S8x2304x4x1_S8x2304x4x1_S8x2304x4x3_d3 : Shape.Concatenates [S8x2304x4x1, S8x2304x4x1, S8x2304x4x1] S8x2304x4x3 3
  shapeCasts_S8x128x48x48_S8x128x2304 : S8x128x48x48.ShapeCasts S8x128x2304
  bitsLt_bf16_f32 : FTy.bits .bf16 < FTy.bits .f32
  inb_S1x128x2304_S1x128x2304_0_0_0 : ∀ a, (![0, 0, 0] : Fin 3 → Nat) a + S1x128x2304.size a ≤ S1x128x2304.size a
  h_S1x128x2304 : 0 < S1x128x2304.numel
  shapeCasts_S1x128x2304_S128x2304 : S1x128x2304.ShapeCasts S128x2304
  inb_S1x2304x2304_S1x2304x2304_0_0_0 : ∀ a, (![0, 0, 0] : Fin 3 → Nat) a + S1x2304x2304.size a ≤ S1x2304x2304.size a
  h_S1x2304x2304 : 0 < S1x2304x2304.numel
  shapeCasts_S1x2304x2304_S2304x2304 : S1x2304x2304.ShapeCasts S2304x2304
  shapeCasts_S128x2304_S1x128x2304 : S128x2304.ShapeCasts S1x128x2304
  shapeCasts_S8x128x2304_S8x128x48x48 : S8x128x2304.ShapeCasts S8x128x48x48
  scatter_S8x2304x2304_S8x2304x4x3_S8x2304x4_n_012_012_3_wf : ScatterDims.WF S8x2304x2304 S8x2304x4x3 S8x2304x4 [] [0, 1, 2] [0, 1, 2] 3
  dot_S128x2304_S2304x2304_S128x2304_1_1_0_0_n_n_wf : DotDims.WF S128x2304 S2304x2304 S128x2304 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2304.size a ≤ S8x128x2304.size a
  hwx0_0 : ∀ i : grid0.Coords, EltTy.bits .bf16 = 32 ∨ (Rect.block (s := S8x128x2304) S1x128x2304.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2304x2304.size a ≤ S8x2304x2304.size a
  hwx0_1 : ∀ i : grid0.Coords, EltTy.bits .bf16 = 32 ∨ (Rect.block (s := S8x2304x2304) S1x2304x2304.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2304.size a ≤ S8x128x2304.size a
  hwx0_2 : ∀ i : grid0.Coords, EltTy.bits .f32 = 32 ∨ (Rect.block (s := S8x128x2304) S1x128x2304.size (cc0_transform_2 i) (hinb0_2 i)).WholeWords (EltTy.packing .f32)

variable [Facts₀]

def scatter_S8x2304x2304_S8x2304x4x3_S8x2304x4_n_012_012_3 : ScatterDims S8x2304x2304 S8x2304x4x3 S8x2304x4 where
  updateWindowDims := []
  insertedWindowDims := [0, 1, 2]
  scatterDimsToOperandDims := [0, 1, 2]
  indexVectorDim := 3
  wf := scatter_S8x2304x2304_S8x2304x4x3_S8x2304x4_n_012_012_3_wf
def dot_S128x2304_S2304x2304_S128x2304_1_1_0_0_n_n : DotDims S128x2304 S2304x2304 S128x2304 where
  lhsContracting := [1]
  rhsContracting := [1]
  lhsNonContracting := [0]
  rhsNonContracting := [0]
  lhsBatch := []
  rhsBatch := []
  wf := dot_S128x2304_S2304x2304_S128x2304_1_1_0_0_n_n_wf

abbrev win0_0 : Pipeline.Window sig grid0 :=
  Pipeline.Window.ofSpec (Memref.whole main_v103) S1x128x2304.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v102) S1x2304x2304.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v104) S1x128x2304.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x128x48x48 : Shape := ⟨4, ![8, 128, 48, 48]⟩
abbrev S8x48x48x2 : Shape := ⟨4, ![8, 48, 48, 2]⟩
abbrev S4x2 : Shape := ⟨2, ![4, 2]⟩
abbrev S8x48x48x1 : Shape := ⟨4, ![8, 48, 48, 1]⟩
abbrev S8x48x48 : Shape := ⟨3, ![8, 48, 48]⟩
abbrev S_ : Shape := ⟨0, ![]⟩
abbrev S48x48 : Shape := ⟨2, ![48, 48]⟩
abbrev S2304 : Shape := ⟨1, ![2304]⟩
abbrev S8x2304x2 : Shape := ⟨3, ![8, 2304, 2]⟩
abbrev S8x2304x1 : Shape := ⟨3, ![8, 2304, 1]⟩
abbrev S8x2304 : Shape := ⟨2, ![8, 2304]⟩
abbrev S8x2304x1x2 : Shape := ⟨4, ![8, 2304, 1, 2]⟩
abbrev S1x1x4x2 : Shape := ⟨4, ![1, 1, 4, 2]⟩
abbrev S8x2304x4x2 : Shape := ⟨4, ![8, 2304, 4, 2]⟩
abbrev S8x2304x4x1 : Shape := ⟨4, ![8, 2304, 4, 1]⟩
abbrev S8x2304x4 : Shape := ⟨3, ![8, 2304, 4]⟩
abbrev S1x2304x1 : Shape := ⟨3, ![1, 2304, 1]⟩
abbrev S8x2304x2304 : Shape := ⟨3, ![8, 2304, 2304]⟩
abbrev S8 : Shape := ⟨1, ![8]⟩
abbrev S8x1x1 : Shape := ⟨3, ![8, 1, 1]⟩
abbrev S8x2304x4x3 : Shape := ⟨4, ![8, 2304, 4, 3]⟩
abbrev S8x128x2304 : Shape := ⟨3, ![8, 128, 2304]⟩

abbrev nBuf : Space → Nat
  | .hbm => 141
  | .vmem => 0
  | .smem => 0
  | _ => 0

abbrev hbmTy0_0 (i : Nat) : BufTy := match i % 128 with
  | 0 => ⟨S8x128x48x48, .f32⟩
  | 1 => ⟨S8x48x48x2, .f32⟩
  | 2 => ⟨S4x2, .f32⟩
  | 3 => ⟨S8x48x48x1, .f32⟩
  | 4 => ⟨S8x48x48, .f32⟩
  | 5 => ⟨S_, .f32⟩
  | 6 => ⟨S8x48x48, .f32⟩
  | 7 => ⟨S8x48x48, .i1⟩
  | 8 => ⟨S_, .i1⟩
  | 9 => ⟨S48x48, .i1⟩
  | 10 => ⟨S8x48x48x1, .f32⟩
  | 11 => ⟨S8x48x48, .f32⟩
  | 12 => ⟨S_, .f32⟩
  | 13 => ⟨S8x48x48, .f32⟩
  | 14 => ⟨S8x48x48, .i1⟩
  | 15 => ⟨S_, .i1⟩
  | 16 => ⟨S48x48, .i1⟩
  | 17 => ⟨S48x48, .i1⟩
  | 18 => ⟨S8x48x48x1, .f32⟩
  | 19 => ⟨S8x48x48, .f32⟩
  | 20 => ⟨S_, .f32⟩
  | 21 => ⟨S8x48x48, .f32⟩
  | 22 => ⟨S8x48x48, .i1⟩
  | 23 => ⟨S_, .i1⟩
  | 24 => ⟨S48x48, .i1⟩
  | 25 => ⟨S8x48x48x1, .f32⟩
  | 26 => ⟨S8x48x48, .f32⟩
  | 27 => ⟨S_, .f32⟩
  | 28 => ⟨S8x48x48, .f32⟩
  | 29 => ⟨S8x48x48, .i1⟩
  | 30 => ⟨S_, .i1⟩
  | 31 => ⟨S48x48, .i1⟩
  | 32 => ⟨S48x48, .i1⟩
  | 33 => ⟨S48x48, .i1⟩
  | 34 => ⟨S2304, .i1⟩
  | 35 => ⟨S8x2304x2, .f32⟩
  | 36 => ⟨S8x2304x1, .f32⟩
  | 37 => ⟨S8x2304, .f32⟩
  | 38 => ⟨S_, .f32⟩
  | 39 => ⟨S_, .f32⟩
  | 40 => ⟨S_, .f32⟩
  | 41 => ⟨S8x2304, .f32⟩
  | 42 => ⟨S8x2304, .f32⟩
  | 43 => ⟨S_, .f32⟩
  | 44 => ⟨S8x2304, .f32⟩
  | 45 => ⟨S8x2304, .f32⟩
  | 46 => ⟨S8x2304x1, .f32⟩
  | 47 => ⟨S8x2304, .f32⟩
  | 48 => ⟨S_, .f32⟩
  | 49 => ⟨S_, .f32⟩
  | 50 => ⟨S_, .f32⟩
  | 51 => ⟨S8x2304, .f32⟩
  | 52 => ⟨S8x2304, .f32⟩
  | 53 => ⟨S_, .f32⟩
  | 54 => ⟨S8x2304, .f32⟩
  | 55 => ⟨S8x2304, .f32⟩
  | 56 => ⟨S8x2304x1, .f32⟩
  | 57 => ⟨S8x2304x1, .f32⟩
  | 58 => ⟨S8x2304x2, .f32⟩
  | 59 => ⟨S8x2304x2, .f32⟩
  | 60 => ⟨S8x2304x1x2, .f32⟩
  | 61 => ⟨S1x1x4x2, .f32⟩
  | 62 => ⟨S8x2304x4x2, .f32⟩
  | 63 => ⟨S8x2304x4x2, .f32⟩
  | 64 => ⟨S8x2304x4x2, .f32⟩
  | 65 => ⟨S8x2304x4x1, .f32⟩
  | 66 => ⟨S8x2304x4, .f32⟩
  | 67 => ⟨S_, .f32⟩
  | 68 => ⟨S8x2304x4, .f32⟩
  | 69 => ⟨S8x2304x4, .f32⟩
  | 70 => ⟨S8x2304x4x1, .f32⟩
  | 71 => ⟨S8x2304x4, .f32⟩
  | 72 => ⟨S8x2304x4, .f32⟩
  | 73 => ⟨S8x2304x4, .i32⟩
  | 74 => ⟨S8x2304x2, .f32⟩
  | 75 => ⟨S8x2304x1, .f32⟩
  | 76 => ⟨S8x2304, .f32⟩
  | 77 => ⟨S8x2304x1, .f32⟩
  | 78 => ⟨S8x2304, .f32⟩
  | 79 => ⟨S_, .f32⟩
  | 80 => ⟨S8x2304, .f32⟩
  | 81 => ⟨S8x2304, .f32⟩
  | 82 => ⟨S_, .f32⟩
  | 83 => ⟨S8x2304, .f32⟩
  | 84 => ⟨S8x2304, .f32⟩
  | 85 => ⟨S8x2304, .f32⟩
  | 86 => ⟨S_, .f32⟩
  | 87 => ⟨S8x2304, .f32⟩
  | 88 => ⟨S8x2304, .f32⟩
  | 89 => ⟨S8x2304, .f32⟩
  | 90 => ⟨S_, .f32⟩
  | 91 => ⟨S8x2304, .f32⟩
  | 92 => ⟨S8x2304, .f32⟩
  | 93 => ⟨S8x2304, .f32⟩
  | 94 => ⟨S8x2304, .f32⟩
  | 95 => ⟨S8x2304x1, .f32⟩
  | 96 => ⟨S8x2304x1, .f32⟩
  | 97 => ⟨S8x2304x1, .f32⟩
  | 98 => ⟨S8x2304x1, .f32⟩
  | 99 => ⟨S8x2304x4, .f32⟩
  | 100 => ⟨S1x2304x1, .i1⟩
  | 101 => ⟨S1x2304x1, .f32⟩
  | 102 => ⟨S8x2304x4, .f32⟩
  | 103 => ⟨S8x2304x4, .f32⟩
  | 104 => ⟨S_, .f32⟩
  | 105 => ⟨S8x2304x2304, .f32⟩
  | 106 => ⟨S8, .i32⟩
  | 107 => ⟨S8x1x1, .i32⟩
  | 108 => ⟨S2304, .i32⟩
  | 109 => ⟨S1x2304x1, .i32⟩
  | 110 => ⟨S_, .i32⟩
  | 111 => ⟨S8x1x1, .i32⟩
  | 112 => ⟨S8x1x1, .i1⟩
  | 113 => ⟨S_, .i32⟩
  | 114 => ⟨S8x1x1, .i32⟩
  | 115 => ⟨S8x1x1, .i32⟩
  | 116 => ⟨S8x1x1, .i32⟩
  | 117 => ⟨S_, .i32⟩
  | 118 => ⟨S1x2304x1, .i32⟩
  | 119 => ⟨S1x2304x1, .i1⟩
  | 120 => ⟨S_, .i32⟩
  | 121 => ⟨S1x2304x1, .i32⟩
  | 122 => ⟨S1x2304x1, .i32⟩
  | 123 => ⟨S1x2304x1, .i32⟩
  | 124 => ⟨S_, .i32⟩
  | 125 => ⟨S8x2304x4, .i32⟩
  | 126 => ⟨S8x2304x4, .i1⟩
  | 127 => ⟨S_, .i32⟩
  | _ => ⟨S8x128x48x48, .f32⟩

abbrev hbmTy0_1 (i : Nat) : BufTy := match i % 128 with
  | 0 => ⟨S8x2304x4, .i32⟩
  | 1 => ⟨S8x2304x4, .i32⟩
  | 2 => ⟨S8x2304x4, .i32⟩
  | 3 => ⟨S8x2304x4, .i32⟩
  | 4 => ⟨S8x2304x4, .i32⟩
  | 5 => ⟨S8x2304x4x1, .i32⟩
  | 6 => ⟨S8x2304x4x1, .i32⟩
  | 7 => ⟨S8x2304x4x1, .i32⟩
  | 8 => ⟨S8x2304x4x3, .i32⟩
  | 9 => ⟨S8x2304x2304, .f32⟩
  | 10 => ⟨S8x128x2304, .f32⟩
  | 11 => ⟨S8x128x2304, .f32⟩
  | 12 => ⟨S8x128x48x48, .f32⟩
  | _ => ⟨S8x128x48x48, .f32⟩

abbrev hbmTy (i : Nat) : BufTy := match i / 128 with
  | 0 => hbmTy0_0 i
  | 1 => hbmTy0_1 i
  | _ => ⟨S8x128x48x48, .f32⟩

abbrev bufTy : (tb : Table) → Fin (tcTables nBuf tb) → BufTy
  | .hbm, ⟨i, _⟩ => hbmTy i
  | _, _ => ⟨S8x128x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_cst_8 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_cst_10 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_11 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_cst_13 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_15 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_16 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_19 : Ref sig .tc := ⟨.hbm, 117, rfl⟩
abbrev main_v84 : Ref sig .tc := ⟨.hbm, 118, rfl⟩
abbrev main_v85 : Ref sig .tc := ⟨.hbm, 119, rfl⟩
abbrev main_c_20 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_c_21 : Ref sig .tc := ⟨.hbm, 124, rfl⟩
abbrev main_v89 : Ref sig .tc := ⟨.hbm, 125, rfl⟩
abbrev main_v90 : Ref sig .tc := ⟨.hbm, 126, rfl⟩
abbrev main_c_22 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩

abbrev nD : Nat := 1
abbrev τ : Topo := Topo.v7x

variable {F : FTy → Type} [FloatOps F]

class Facts₀ : Prop where
  slices_S8x48x48x2_S8x48x48x1_0_0_0_0 : S8x48x48x2.Slices ![0, 0, 0, 0] S8x48x48x1
  shapeCasts_S8x48x48x1_S8x48x48 : S8x48x48x1.ShapeCasts S8x48x48
  bcast_S_S8x48x48 : S_.BroadcastsInDim S8x48x48 (![] : Fin 0 → Fin S8x48x48.rank)
  reducesTo_S8x48x48_S48x48_d0 : S8x48x48.ReducesTo [0] S48x48
  h_S_ : 0 < S_.numel
  slices_S8x48x48x2_S8x48x48x1_0_0_0_1 : S8x48x48x2.Slices ![0, 0, 0, 1] S8x48x48x1
  shapeCasts_S48x48_S2304 : S48x48.ShapeCasts S2304
  shapeCasts_S8x48x48x2_S8x2304x2 : S8x48x48x2.ShapeCasts S8x2304x2
  slices_S8x2304x2_S8x2304x1_0_0_0 : S8x2304x2.Slices ![0, 0, 0] S8x2304x1
  shapeCasts_S8x2304x1_S8x2304 : S8x2304x1.ShapeCasts S8x2304
  bcast_S_S8x2304 : S_.BroadcastsInDim S8x2304 (![] : Fin 0 → Fin S8x2304.rank)
  slices_S8x2304x2_S8x2304x1_0_0_1 : S8x2304x2.Slices ![0, 0, 1] S8x2304x1
  bcast_S8x2304_S8x2304x1_0_1 : S8x2304.BroadcastsInDim S8x2304x1 (![0, 1] : Fin 2 → Fin S8x2304x1.rank)
  concatenates_S8x2304x1_S8x2304x1_S8x2304x2_d2 : Shape.Concatenates [S8x2304x1, S8x2304x1] S8x2304x2 2
  bcast_S8x2304x2_S8x2304x1x2_0_1_3 : S8x2304x2.BroadcastsInDim S8x2304x1x2 (![0, 1, 3] : Fin 3 → Fin S8x2304x1x2.rank)
  bcast_S4x2_S1x1x4x2_2_3 : S4x2.BroadcastsInDim S1x1x4x2 (![2, 3] : Fin 2 → Fin S1x1x4x2.rank)
  bcast_S8x2304x1x2_S8x2304x4x2_0_1_2_3 : S8x2304x1x2.BroadcastsInDim S8x2304x4x2 (![0, 1, 2, 3] : Fin 4 → Fin S8x2304x4x2.rank)
  bcast_S1x1x4x2_S8x2304x4x2_0_1_2_3 : S1x1x4x2.BroadcastsInDim S8x2304x4x2 (![0, 1, 2, 3] : Fin 4 → Fin S8x2304x4x2.rank)
  slices_S8x2304x4x2_S8x2304x4x1_0_0_0_0 : S8x2304x4x2.Slices ![0, 0, 0, 0] S8x2304x4x1
  shapeCasts_S8x2304x4x1_S8x2304x4 : S8x2304x4x1.ShapeCasts S8x2304x4
  bcast_S_S8x2304x4 : S_.BroadcastsInDim S8x2304x4 (![] : Fin 0 → Fin S8x2304x4.rank)
  slices_S8x2304x4x2_S8x2304x4x1_0_0_0_1 : S8x2304x4x2.Slices ![0, 0, 0, 1] S8x2304x4x1
  concatenates_S8x2304x1_S8x2304x1_S8x2304x1_S8x2304x1_S8x2304x4_d2 : Shape.Concatenates [S8x2304x1, S8x2304x1, S8x2304x1, S8x2304x1] S8x2304x4 2
  bcast_S2304_S1x2304x1_1 : S2304.BroadcastsInDim S1x2304x1 (![1] : Fin 1 → Fin S1x2304x1.rank)
  bcast_S1x2304x1_S8x2304x4_0_1_2 : S1x2304x1.BroadcastsInDim S8x2304x4 (![0, 1, 2] : Fin 3 → Fin S8x2304x4.rank)
  bcast_S_S8x2304x2304 : S_.BroadcastsInDim S8x2304x2304 (![] : Fin 0 → Fin S8x2304x2304.rank)
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S_S1x2304x1 : S_.BroadcastsInDim S1x2304x1 (![] : Fin 0 → Fin S1x2304x1.rank)
  bcast_S8x1x1_S8x2304x4_0_1_2 : S8x1x1.BroadcastsInDim S8x2304x4 (![0, 1, 2] : Fin 3 → Fin S8x2304x4.rank)
  bcast_S8x2304x4_S8x2304x4x1_0_1_2 : S8x2304x4.BroadcastsInDim S8x2304x4x1 (![0, 1, 2] : Fin 3 → Fin S8x2304x4x1.rank)
  concatenates_S8x2304x4x1_S8x2304x4x1_S8x2304x4x1_S8x2304x4x3_d3 : Shape.Concatenates [S8x2304x4x1, S8x2304x4x1, S8x2304x4x1] S8x2304x4x3 3
  shapeCasts_S8x128x48x48_S8x128x2304 : S8x128x48x48.ShapeCasts S8x128x2304
  shapeCasts_S8x128x2304_S8x128x48x48 : S8x128x2304.ShapeCasts S8x128x48x48
  scatter_S8x2304x2304_S8x2304x4x3_S8x2304x4_n_012_012_3_wf : ScatterDims.WF S8x2304x2304 S8x2304x4x3 S8x2304x4 [] [0, 1, 2] [0, 1, 2] 3
  dot_S8x128x2304_S8x2304x2304_S8x128x2304_2_2_1_1_0_0_wf : DotDims.WF S8x128x2304 S8x2304x2304 S8x128x2304 [2] [2] [1] [1] [0] [0]

variable [Facts₀]

def scatter_S8x2304x2304_S8x2304x4x3_S8x2304x4_n_012_012_3 : ScatterDims S8x2304x2304 S8x2304x4x3 S8x2304x4 where
  updateWindowDims := []
  insertedWindowDims := [0, 1, 2]
  scatterDimsToOperandDims := [0, 1, 2]
  indexVectorDim := 3
  wf := scatter_S8x2304x2304_S8x2304x4x3_S8x2304x4_n_012_012_3_wf
def dot_S8x128x2304_S8x2304x2304_S8x128x2304_2_2_1_1_0_0 : DotDims S8x128x2304 S8x2304x2304 S8x128x2304 where
  lhsContracting := [2]
  rhsContracting := [2]
  lhsNonContracting := [1]
  rhsNonContracting := [1]
  lhsBatch := [0]
  rhsBatch := [0]
  wf := dot_S8x128x2304_S8x2304x2304_S8x128x2304_2_2_1_1_0_0_wf

class Facts : Prop extends Facts₀ where

variable [Facts]
-- ==== Proof.FrameK.lean ====
import proofs.«151331_j73959336837140_1_alg».proof.Proof.Gen.Kernel.Launch
import proofs.«151331_j73959336837140_1_alg».proof.Proof.Gen.Kernel.Skeleton
import proofs.«151331_j73959336837140_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! The frame of the program: the host lines before its one region leave both argument arrays as launched and
    prepare the region's two input arrays; the region, at each of its eight grid points, reads one block of
    each input array and overwrites one block of the output array with the product of the two blocks; the one
    host line after the region reshapes the output array into the result. Hence the program runs, and both
    argument arrays end as they began. -/

-- membership of an index in a rectangle with axes of length 2304 recurses once per coordinate
set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What core `c`'s buffers hold when the region is entered: the launch memory folded through the five stretches of
    host lines before it. Kept folded: no equation below evaluates it. -/
abbrev V0 (c : Dev nD) : Valuation τ sig (Elt F) :=
  StableHlo.after (List.flatten [hostOps0, hostOps0_1, hostOps0_2, hostOps0_3, hostOps0_4]) (fun b => m (c, b))
/-- The same, read at a reference of the core. -/
abbrev V (c : Dev nD) (b : Ref sig .tc) : Buf (Elt F) ((c : Thread nD τ).loc b) := V0 m c (Proc.devRef .tc b)

/-- No host line allocates. -/
theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- The program is its five leading stretches of host lines, then the region, then the closing reshape; so from the
    launch memory it reaches the region with the buffers at `V`, and what remains after the region is the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨fresh0, fresh0_1, fresh0_2, fresh0_3, fresh0_4⟩) main_chain

/-- The one line after the region is the reshape. -/
theorem tail_line {ops : List (HloOp τ sig (Elt F))} (hops : ops ∈ ([hostOps1] : List (List (HloOp τ sig (Elt F))))) : ops = hostOps1 := by
  simpa only [List.mem_cons, List.mem_nil_iff, or_false] using hops

/-- It touches only unscoped buffers of the core: the region's arrays or buffers the region bypasses. -/
theorem sfx_sub : ∀ ops ∈ ([hostOps1] : List (List (HloOp τ sig (Elt F)))), ∀ op ∈ ops,
    op.bufs ⊆ Pipeline.tailRefs sig Pipeline.Prefetch.none spec0 := by
  intro ops hops op hop
  rw [tail_line hops] at hop
  rw [Pipeline.tailRefs_none spec0 launch0.win.arr_unscoped]
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  rw [tail_line hops] at hop
  exact (List.forall_iff_forall_mem.mp fresh1) op hop
/-- It writes the result buffer only, which is none of the region's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  rw [tail_line hops] at hop
  simp only [hostOps1, List.mem_cons, List.mem_nil_iff, or_false] at hop
  subst hop
  fin_cases w <;> simp only [StableHlo.reshape_writes, Finset.mem_singleton] <;> exact StableHlo.devRef_ne_of_ne (by decide)

set_option maxHeartbeats 4000000 in
/-- Every host line before the region writes its own result buffer, and none of those is the first argument array:
    the region is entered with it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

set_option maxHeartbeats 4000000 in
/-- Nor is any the second argument array. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- The reshape after the region writes neither argument array, and neither is an array of the region: whatever the
    region's proof data, the first argument array ends as launched. -/
theorem W_main_arg0_of (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  have htail : ∀ op ∈ List.flatten [(hostOps1 : List (HloOp τ sig (Elt F)))], Proc.devRef .tc main_arg0 ∉ op.writes :=
    List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))
  rw [StableHlo.after_of_forall_not_mem (b := Proc.devRef .tc main_arg0) _ _ htail,
    Pipeline.withArrays_of_ne _ c (V0 m c) _ main_arg0 (by exact (by decide : ∀ w, Pipeline.arrRef spec0 w ≠ main_arg0))]
  exact V_main_arg0 m c
/-- And so does the second. -/
theorem W_main_arg1_of (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  have htail : ∀ op ∈ List.flatten [(hostOps1 : List (HloOp τ sig (Elt F)))], Proc.devRef .tc main_arg1 ∉ op.writes :=
    List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))
  rw [StableHlo.after_of_forall_not_mem (b := Proc.devRef .tc main_arg1) _ _ htail,
    Pipeline.withArrays_of_ne _ c (V0 m c) _ main_arg1 (by exact (by decide : ∀ w, Pipeline.arrRef spec0 w ≠ main_arg1))]
  exact V_main_arg1 m c

/-! ## The blocks the region reads -/

/-- Window `w`'s block at grid point `t`, cut from its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input window is fetched at every grid point, so at every point its staging buffer holds its block there
    — for any proof data over the arrays `V`. -/
theorem before0_0_of {c : Dev nD} (dat : Dat τ (Elt F) Unit ℕ (UR sig nD τ) ℕ cfg0 c) (hA : dat.A 0 = V m c (Pipeline.arrRef spec0 0))
    (t : Fin cfg0.N) (d) : dat.before 0 t d = iblk m c 0 t :=
  (dat.before_fetched 0 t (fetch0_0 t) d).trans (by unfold Dat.fetched Dat.blockOf iblk; rw [hA]; try rfl)
/-- Likewise the second input window. -/
theorem before0_1_of {c : Dev nD} (dat : Dat τ (Elt F) Unit ℕ (UR sig nD τ) ℕ cfg0 c) (hA : dat.A 1 = V m c (Pipeline.arrRef spec0 1))
    (t : Fin cfg0.N) (d) : dat.before 1 t d = iblk m c 1 t :=
  (dat.before_fetched 1 t (fetch0_1 t) d).trans (by unfold Dat.fetched Dat.blockOf iblk; rw [hA]; try rfl)

/-- From a run that ends with every bypassed buffer as the reshape leaves it, the frame claim: neither argument array
    is an array of the region, so each is read off the run's second clause and then off the reshape. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0_of m dats c),
     ((h c).2 main_arg1 (Pipeline.mem_restRefs_of main_arg1 (by decide) (by decide))).trans (W_main_arg1_of m dats c)⟩) h

/-! ## What the body reads and writes -/

/-- The whole of the first input's staging buffer (and of the output's, of the same shape). -/
abbrev r0_0 : Rect S1x128x2304 := Rect.unit (s := S1x128x2304) ![0, 0, 0] S1x128x2304.size inb_S1x128x2304_S1x128x2304_0_0_0
/-- The whole of the second input's staging buffer. -/
abbrev r0_1 : Rect S1x2304x2304 := Rect.unit (s := S1x2304x2304) ![0, 0, 0] S1x2304x2304.size inb_S1x2304x2304_S1x2304x2304_0_0_0

/-- What the body leaves in the output's staging buffer, from the two input blocks: its one store, of the product of the
    two blocks, over the whole buffer. -/
def out0_2 (x0 : Vec F S1x128x2304 .bf16) (x1 : Vec F S1x2304x2304 .bf16) : Vec F S1x128x2304 .f32 :=
  View.canon [⟨r0_0, k0_pay1 (View.ld x0 r0_0) (View.ld x1 r0_1)⟩]

/-- The one store covers the output's buffer: its rectangle is the whole shape. -/
theorem cover0_2 (p0 : Vec F S1x128x2304 .f32) (y : S1x128x2304.Idx) :
    ∃ pc ∈ ([⟨r0_0, p0⟩] : List (View.Piece (Elt F) S1x128x2304 .f32)), y ∈ pc.1.set :=
  View.cover_of_tiled [⟨r0_0, p0⟩] S1x128x2304.size (by rfl) y

/-! ## The body's triple -/

set_option maxHeartbeats 1000000 in
/-- The body, given the two input buffers at `x0`, `x1` and the output buffer at anything: it loads the three buffers
    whole (what it loads of the output is not used), stores the product over the output buffer, and continues with the
    inputs as they were and the output at `out0_2 x0 x1`. -/
theorem sound_kernel (c : Dev nD) (E : Set ℕ) (i : grid0.Coords)
    (arg1 : Memref sig .tc .vmem S1x128x2304 .bf16) (harg1 : arg1.IsWhole)
    (arg2 : Memref sig .tc .vmem S1x2304x2304 .bf16) (harg2 : arg2.IsWhole)
    (arg3 : Memref sig .tc .vmem S1x128x2304 .f32) (harg3 : arg3.IsWhole)
    (x0 : Vec F S1x128x2304 .bf16) (x1 : Vec F S1x2304x2304 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__remap_kernel i arg1 harg1 arg2 harg2 arg3 harg3) K := by
  simp only [cc0__remap_kernel_eq_skeleton]; unfold cc0__remap_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- On core `c`: the arrays as the region finds them; after the body at point `t`, each input's buffer still at its
    block and the output's at the product of the two blocks; the invariant is the untouched rest of the core; full
    shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents (a projection; the fold `V` stays folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- What the body finds in each input's buffer: its block. -/
theorem before0_0 (c : Dev nD) (t : Fin cfg0.N) (d) : (dats m 0 c).before 0 t d = iblk m c 0 t :=
  before0_0_of m (dats m 0 c) (A_eq m c 0) t d
theorem before0_1 (c : Dev nD) (t : Fin cfg0.N) (d) : (dats m 0 c).before 1 t d = iblk m c 1 t :=
  before0_1_of m (dats m 0 c) (A_eq m c 1) t d

/-- With these proof data both argument arrays end as launched. -/
theorem W_main_arg0 (c : Dev nD) : Pipeline.afterTail₀ cfgs (dats m) 0 (V0 m) [hostOps1] c main_arg0 = m ((c : Thread nD τ).loc main_arg0) :=
  W_main_arg0_of m (dats m) c
theorem W_main_arg1 (c : Dev nD) : Pipeline.afterTail₀ cfgs (dats m) 0 (V0 m) [hostOps1] c main_arg1 = m ((c : Thread nD τ).loc main_arg1) :=
  W_main_arg1_of m (dats m) c

/-! ## The body obligation -/

/-- What the body is called with at point `t`: the invariant, what is owed, and the three current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the inputs' buffers hold their blocks, so the body's triple applies; the invariant and what is owed
    pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this statement, which unfolds plain
-- definitions inside a metavariable's type
set_option backward.isDefEq.respectTransparency.types false in
/-- From any launch memory with zero counters, every weakly fair execution of the program on the cores terminates, with
    each array of the region at what the proof data say and every other unscoped buffer as the reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim of the program, at any float model: it runs, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.HFrame

end
-- ==== Proof.FrameKI.lean ====
import proofs.«151331_j73959336837140_1_alg».proof.Proof.Gen.KernelIdeal.Launch
import proofs.«151331_j73959336837140_1_alg».proof.Proof.Gen.KernelIdeal.Skeleton
import proofs.«151331_j73959336837140_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! The frame of the program: the host lines before its one region leave both argument arrays as launched and
    prepare the region's two input arrays; the region, at each of its eight grid points, reads one block of
    each input array and overwrites one block of the output array with the product of the two blocks; the one
    host line after the region reshapes the output array into the result. Hence the program runs, and both
    argument arrays end as they began. -/

-- membership of an index in a rectangle with axes of length 2304 recurses once per coordinate
set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What core `c`'s buffers hold when the region is entered: the launch memory folded through the five stretches of
    host lines before it. Kept folded: no equation below evaluates it. -/
abbrev V0 (c : Dev nD) : Valuation τ sig (Elt F) :=
  StableHlo.after (List.flatten [hostOps0, hostOps0_1, hostOps0_2, hostOps0_3, hostOps0_4]) (fun b => m (c, b))
/-- The same, read at a reference of the core. -/
abbrev V (c : Dev nD) (b : Ref sig .tc) : Buf (Elt F) ((c : Thread nD τ).loc b) := V0 m c (Proc.devRef .tc b)

/-- No host line allocates. -/
theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- The program is its five leading stretches of host lines, then the region, then the closing reshape; so from the
    launch memory it reaches the region with the buffers at `V`, and what remains after the region is the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨fresh0, fresh0_1, fresh0_2, fresh0_3, fresh0_4⟩) main_chain

/-- The one line after the region is the reshape. -/
theorem tail_line {ops : List (HloOp τ sig (Elt F))} (hops : ops ∈ ([hostOps1] : List (List (HloOp τ sig (Elt F))))) : ops = hostOps1 := by
  simpa only [List.mem_cons, List.mem_nil_iff, or_false] using hops

/-- It touches only unscoped buffers of the core: the region's arrays or buffers the region bypasses. -/
theorem sfx_sub : ∀ ops ∈ ([hostOps1] : List (List (HloOp τ sig (Elt F)))), ∀ op ∈ ops,
    op.bufs ⊆ Pipeline.tailRefs sig Pipeline.Prefetch.none spec0 := by
  intro ops hops op hop
  rw [tail_line hops] at hop
  rw [Pipeline.tailRefs_none spec0 launch0.win.arr_unscoped]
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  rw [tail_line hops] at hop
  exact (List.forall_iff_forall_mem.mp fresh1) op hop
/-- It writes the result buffer only, which is none of the region's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  rw [tail_line hops] at hop
  simp only [hostOps1, List.mem_cons, List.mem_nil_iff, or_false] at hop
  subst hop
  fin_cases w <;> simp only [StableHlo.reshape_writes, Finset.mem_singleton] <;> exact StableHlo.devRef_ne_of_ne (by decide)

set_option maxHeartbeats 4000000 in
/-- Every host line before the region writes its own result buffer, and none of those is the first argument array:
    the region is entered with it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

set_option maxHeartbeats 4000000 in
/-- Nor is any the second argument array. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- The reshape after the region writes neither argument array, and neither is an array of the region: whatever the
    region's proof data, the first argument array ends as launched. -/
theorem W_main_arg0_of (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  have htail : ∀ op ∈ List.flatten [(hostOps1 : List (HloOp τ sig (Elt F)))], Proc.devRef .tc main_arg0 ∉ op.writes :=
    List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))
  rw [StableHlo.after_of_forall_not_mem (b := Proc.devRef .tc main_arg0) _ _ htail,
    Pipeline.withArrays_of_ne _ c (V0 m c) _ main_arg0 (by exact (by decide : ∀ w, Pipeline.arrRef spec0 w ≠ main_arg0))]
  exact V_main_arg0 m c
/-- And so does the second. -/
theorem W_main_arg1_of (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  have htail : ∀ op ∈ List.flatten [(hostOps1 : List (HloOp τ sig (Elt F)))], Proc.devRef .tc main_arg1 ∉ op.writes :=
    List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))
  rw [StableHlo.after_of_forall_not_mem (b := Proc.devRef .tc main_arg1) _ _ htail,
    Pipeline.withArrays_of_ne _ c (V0 m c) _ main_arg1 (by exact (by decide : ∀ w, Pipeline.arrRef spec0 w ≠ main_arg1))]
  exact V_main_arg1 m c

/-! ## The blocks the region reads -/

/-- Window `w`'s block at grid point `t`, cut from its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input window is fetched at every grid point, so at every point its staging buffer holds its block there
    — for any proof data over the arrays `V`. -/
theorem before0_0_of {c : Dev nD} (dat : Dat τ (Elt F) Unit ℕ (UR sig nD τ) ℕ cfg0 c) (hA : dat.A 0 = V m c (Pipeline.arrRef spec0 0))
    (t : Fin cfg0.N) (d) : dat.before 0 t d = iblk m c 0 t :=
  (dat.before_fetched 0 t (fetch0_0 t) d).trans (by unfold Dat.fetched Dat.blockOf iblk; rw [hA]; try rfl)
/-- Likewise the second input window. -/
theorem before0_1_of {c : Dev nD} (dat : Dat τ (Elt F) Unit ℕ (UR sig nD τ) ℕ cfg0 c) (hA : dat.A 1 = V m c (Pipeline.arrRef spec0 1))
    (t : Fin cfg0.N) (d) : dat.before 1 t d = iblk m c 1 t :=
  (dat.before_fetched 1 t (fetch0_1 t) d).trans (by unfold Dat.fetched Dat.blockOf iblk; rw [hA]; try rfl)

/-- From a run that ends with every bypassed buffer as the reshape leaves it, the frame claim: neither argument array
    is an array of the region, so each is read off the run's second clause and then off the reshape. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0_of m dats c),
     ((h c).2 main_arg1 (Pipeline.mem_restRefs_of main_arg1 (by decide) (by decide))).trans (W_main_arg1_of m dats c)⟩) h

/-! ## What the body reads and writes -/

/-- The whole of the first input's staging buffer (and of the output's, of the same shape). -/
abbrev r0_0 : Rect S1x128x2304 := Rect.unit (s := S1x128x2304) ![0, 0, 0] S1x128x2304.size inb_S1x128x2304_S1x128x2304_0_0_0
/-- The whole of the second input's staging buffer. -/
abbrev r0_1 : Rect S1x2304x2304 := Rect.unit (s := S1x2304x2304) ![0, 0, 0] S1x2304x2304.size inb_S1x2304x2304_S1x2304x2304_0_0_0

/-- What the body leaves in the output's staging buffer, from the two input blocks: its one store, of the product of the
    two blocks, over the whole buffer. -/
def out0_2 (x0 : Vec F S1x128x2304 .bf16) (x1 : Vec F S1x2304x2304 .bf16) : Vec F S1x128x2304 .f32 :=
  View.canon [⟨r0_0, k0_pay1 (View.ld x0 r0_0) (View.ld x1 r0_1)⟩]

/-- The one store covers the output's buffer: its rectangle is the whole shape. -/
theorem cover0_2 (p0 : Vec F S1x128x2304 .f32) (y : S1x128x2304.Idx) :
    ∃ pc ∈ ([⟨r0_0, p0⟩] : List (View.Piece (Elt F) S1x128x2304 .f32)), y ∈ pc.1.set :=
  View.cover_of_tiled [⟨r0_0, p0⟩] S1x128x2304.size (by rfl) y

/-! ## The body's triple -/

set_option maxHeartbeats 1000000 in
/-- The body, given the two input buffers at `x0`, `x1` and the output buffer at anything: it loads the three buffers
    whole (what it loads of the output is not used), stores the product over the output buffer, and continues with the
    inputs as they were and the output at `out0_2 x0 x1`. -/
theorem sound_kernel (c : Dev nD) (E : Set ℕ) (i : grid0.Coords)
    (arg1 : Memref sig .tc .vmem S1x128x2304 .bf16) (harg1 : arg1.IsWhole)
    (arg2 : Memref sig .tc .vmem S1x2304x2304 .bf16) (harg2 : arg2.IsWhole)
    (arg3 : Memref sig .tc .vmem S1x128x2304 .f32) (harg3 : arg3.IsWhole)
    (x0 : Vec F S1x128x2304 .bf16) (x1 : Vec F S1x2304x2304 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__remap_kernel i arg1 harg1 arg2 harg2 arg3 harg3) K := by
  simp only [cc0__remap_kernel_eq_skeleton]; unfold cc0__remap_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- On core `c`: the arrays as the region finds them; after the body at point `t`, each input's buffer still at its
    block and the output's at the product of the two blocks; the invariant is the untouched rest of the core; full
    shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents (a projection; the fold `V` stays folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- What the body finds in each input's buffer: its block. -/
theorem before0_0 (c : Dev nD) (t : Fin cfg0.N) (d) : (dats m 0 c).before 0 t d = iblk m c 0 t :=
  before0_0_of m (dats m 0 c) (A_eq m c 0) t d
theorem before0_1 (c : Dev nD) (t : Fin cfg0.N) (d) : (dats m 0 c).before 1 t d = iblk m c 1 t :=
  before0_1_of m (dats m 0 c) (A_eq m c 1) t d

/-- With these proof data both argument arrays end as launched. -/
theorem W_main_arg0 (c : Dev nD) : Pipeline.afterTail₀ cfgs (dats m) 0 (V0 m) [hostOps1] c main_arg0 = m ((c : Thread nD τ).loc main_arg0) :=
  W_main_arg0_of m (dats m) c
theorem W_main_arg1 (c : Dev nD) : Pipeline.afterTail₀ cfgs (dats m) 0 (V0 m) [hostOps1] c main_arg1 = m ((c : Thread nD τ).loc main_arg1) :=
  W_main_arg1_of m (dats m) c

/-! ## The body obligation -/

/-- What the body is called with at point `t`: the invariant, what is owed, and the three current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the inputs' buffers hold their blocks, so the body's triple applies; the invariant and what is owed
    pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this statement, which unfolds plain
-- definitions inside a metavariable's type
set_option backward.isDefEq.respectTransparency.types false in
/-- From any launch memory with zero counters, every weakly fair execution of the program on the cores terminates, with
    each array of the region at what the proof data say and every other unscoped buffer as the reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim of the program, at any float model: it runs, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.HFrame

end
-- ==== Proof.LibMatmulTransposedRhs.lean ====
/-
  A matrix product against a transposed right operand, read at one entry, on the extended reals.

  For the dimension numbers of an `[M, K]` by `[N, K]` product (contract the last axis of both operands, no batch
  axis), the matrix unit's product accumulated into a zero block, and the host's `dot_general`, are both, at entry
  `(r, s)`, the sum over `k` of `lhs[r, k] · rhs[s, k]`: the contraction index has one coordinate, and the operand
  indices at `(r, s)` and `k` are `(r, k)` and `(s, k)`.
-/
import Idealize.ShloMosaic.PureOps.Ideal.Laws
import Idealize.ShloMosaic.Lib.ValueIdx

noncomputable section

open scoped BigOperators
open Idealize.ShloMosaic Idealize.ShloMosaic.ValueIdx

namespace Cert.MatmulTransposedRhs

variable {M K N : Nat}

/-- The left operand's index at output `(r, s)` and contraction coordinate `k` is `(r, k)`. -/
theorem lhsIdx_transposedRhs (r : Fin M) (s : Fin N) (k : Fin K) :
    (DotDims.transposedRhs M K N).lhsIdx (ix2 r s) ((contrEquiv1 (DotDims.transposedRhs M K N) K rfl rfl).symm k) = ix2 r k := by
  have hk := contrEquiv1_symm_val (DotDims.transposedRhs M K N) K rfl rfl k
  funext a
  refine Fin.ext ?_
  match a with
  | ⟨0, _⟩ => rfl
  | ⟨1, _⟩ => exact ((DotDims.transposedRhs M K N).lhsIdx_val_of_single rfl (ix2 r s) _).trans hk

/-- The right operand's index there is `(s, k)`. -/
theorem rhsIdx_transposedRhs (r : Fin M) (s : Fin N) (k : Fin K) :
    (DotDims.transposedRhs M K N).rhsIdx (ix2 r s) ((contrEquiv1 (DotDims.transposedRhs M K N) K rfl rfl).symm k) = ix2 s k := by
  have hk := contrEquiv1_symm_val (DotDims.transposedRhs M K N) K rfl rfl k
  funext a
  refine Fin.ext ?_
  match a with
  | ⟨0, _⟩ => rfl
  | ⟨1, _⟩ => exact ((DotDims.transposedRhs M K N).rhsIdx_val_of_single rfl (ix2 r s) _).trans hk

/-- The matrix unit's product into a zero accumulator, at entry `(r, s)`: `Σ_k lhs[r, k] · rhs[s, k]`. -/
theorem matmul_zero_apply {φ₁ φ₂ : FTy} (prec : Option ContractPrecision)
    (lhs : FVec Ideal ⟨2, ![M, K]⟩ φ₁) (rhs : FVec Ideal ⟨2, ![N, K]⟩ φ₂) (r : Fin M) (s : Fin N) :
    FloatOps.matmul (DotDims.transposedRhs M K N) prec lhs rhs (constant ⟨2, ![M, N]⟩ .f32 0x00000000#32) (ix2 r s)
      = ∑ k : Fin K, lhs (ix2 r k) * rhs (ix2 s k) := by
  rw [Ideal.matmul_constant_zero_apply, ← Equiv.sum_comp (contrEquiv1 (DotDims.transposedRhs M K N) K rfl rfl).symm]
  refine Finset.sum_congr rfl fun k _ => ?_
  rw [lhsIdx_transposedRhs, rhsIdx_transposedRhs]

/-- The host's `dot_general` at entry `(r, s)`: the same sum. -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (s : Fin N) :
    FloatOps.dotGeneral (DotDims.transposedRhs M K N) prec sched lhs rhs (ix2 r s)
      = ∑ k : Fin K, lhs (ix2 r k) * rhs (ix2 s k) := by
  rw [Ideal.dotGeneral_apply, ← Equiv.sum_comp (contrEquiv1 (DotDims.transposedRhs M K N) K rfl rfl).symm]
  refine Finset.sum_congr rfl fun k _ => ?_
  rw [lhsIdx_transposedRhs, rhsIdx_transposedRhs]

end Cert.MatmulTransposedRhs

end
-- ==== Proof.ValueAlg.lean ====
/-
  The two contractions of the claim, read at one entry, on the extended reals.

  The kernel's body multiplies, for one batch member, a `[128, 2304]` block by a `[2304, 2304]` block contracted on
  the LAST axis of both (the right factor enters transposed), into a zero accumulator; the leading unit axis of the
  two blocks is dropped before the product and put back after it. The reference multiplies the whole `[8, 128, 2304]`
  and `[8, 2304, 2304]` arrays in one product with batch axis 0 on both sides and contracted axis 2 on both sides.
  At entry `(n, r, s)` both are the sum over `k` of `X[n, r, k] · M[n, s, k]`: the contraction index has one
  coordinate, and the operand indices at `(n, r, s)` and `k` are `(n, r, k)` and `(n, s, k)`.
-/
import proofs.«151331_j73959336837140_1_alg».proof.Proof.Gen.KernelIdeal.Skeleton
import proofs.«151331_j73959336837140_1_alg».proof.Proof.Gen.ReferenceIdeal
import proofs.«151331_j73959336837140_1_alg».proof.Proof.LibMatmulTransposedRhs
import Idealize.ShloMosaic.PureOps.Ideal.Laws
import Idealize.ShloMosaic.Lib.ValueIdx
import Idealize.ShloMosaic.Lib.Pipeline.Value
import Idealize.ShloMosaic.Lib.ValueLayout

noncomputable section

open scoped BigOperators
open Idealize.ShloMosaic Idealize.ShloMosaic.ValueIdx

namespace Cert.ValueAlg

/-- Entry `(n, r, s)` of the batched product with the right factor transposed: `Σ_k X[n, r, k] · M[n, s, k]`. -/
def bmmAt (X : (⟨3, ![8, 128, 2304]⟩ : Shape).Idx → EReal) (M : (⟨3, ![8, 2304, 2304]⟩ : Shape).Idx → EReal)
    (n : Fin 8) (r : Fin 128) (s : Fin 2304) : EReal :=
  ∑ k : Fin 2304, X (ix3 n r k) * M (ix3 n s k)

/-! ## The kernel's product of one batch member -/

/-- The kernel's dimension numbers are those of an `[M, K]` by `[N, K]` product: the same six lists. -/
theorem kernel_dot_eq [Cert.KernelIdeal.Facts₀] :
    Cert.KernelIdeal.dot_S128x2304_S2304x2304_S128x2304_1_1_0_0_n_n = DotDims.transposedRhs 128 2304 2304 := rfl

/-- The kernel body's one payload at entry `(0, r, s)`: the leading unit axis is dropped from both blocks, the product
    of the two matrices with the right one transposed is taken into a zero accumulator, and the unit axis is put
    back; so the entry is `Σ_k x0[0, r, k] · x1[0, s, k]`. -/
theorem pay_apply (x0 : Vec Ideal Cert.KernelIdeal.S1x128x2304 .bf16) (x1 : Vec Ideal Cert.KernelIdeal.S1x2304x2304 .bf16)
    (r : Fin 128) (s : Fin 2304) :
    Cert.KernelIdeal.Gen.k0_pay1 (F := Ideal) x0 x1 (ix3 0 r s) = ∑ k : Fin 2304, x0 (ix3 0 r k) * x1 (ix3 0 s k) := by
  unfold Cert.KernelIdeal.Gen.k0_pay1
  rw [shapeCast_ab_1ab_apply]
  show FloatOps.matmul (DotDims.transposedRhs 128 2304 2304) none _ _ (constant (F := Ideal) ⟨2, ![128, 2304]⟩ .f32 0x00000000#32) (ix2 r s) = _
  rw [Cert.MatmulTransposedRhs.matmul_zero_apply]
  refine Finset.sum_congr rfl fun k _ => ?_
  rw [shapeCast_1ab_ab_apply, shapeCast_1ab_ab_apply]

/-! ## The reference's batched product -/

section Reference

variable [Cert.ReferenceIdeal.Facts₀]

/-- Left operand, batch axis: the output's batch coordinate. -/
theorem ref_lhsIdx_axis0 (n : Fin 8) (r : Fin 128) (s : Fin 2304)
    (k : Cert.ReferenceIdeal.dot_S8x128x2304_S8x2304x2304_S8x128x2304_2_2_1_1_0_0.contr.Idx) :
    (Cert.ReferenceIdeal.dot_S8x128x2304_S8x2304x2304_S8x128x2304_2_2_1_1_0_0.lhsIdx (ix3 n r s) k 0).val = n.val := rfl

/-- Left operand, free axis: the output's row coordinate. -/
theorem ref_lhsIdx_axis1 (n : Fin 8) (r : Fin 128) (s : Fin 2304)
    (k : Cert.ReferenceIdeal.dot_S8x128x2304_S8x2304x2304_S8x128x2304_2_2_1_1_0_0.contr.Idx) :
    (Cert.ReferenceIdeal.dot_S8x128x2304_S8x2304x2304_S8x128x2304_2_2_1_1_0_0.lhsIdx (ix3 n r s) k 1).val = r.val := rfl

/-- Left operand, contracted axis: the contraction index's one coordinate. -/
theorem ref_lhsIdx_axis2 (n : Fin 8) (r : Fin 128) (s : Fin 2304)
    (k : Cert.ReferenceIdeal.dot_S8x128x2304_S8x2304x2304_S8x128x2304_2_2_1_1_0_0.contr.Idx) :
    (Cert.ReferenceIdeal.dot_S8x128x2304_S8x2304x2304_S8x128x2304_2_2_1_1_0_0.lhsIdx (ix3 n r s) k 2).val
      = (k ⟨0, Nat.one_pos⟩).val :=
  Cert.ReferenceIdeal.dot_S8x128x2304_S8x2304x2304_S8x128x2304_2_2_1_1_0_0.lhsIdx_val_of_single rfl (ix3 n r s) k

/-- Right operand, batch axis: the output's batch coordinate. -/
theorem ref_rhsIdx_axis0 (n : Fin 8) (r : Fin 128) (s : Fin 2304)
    (k : Cert.ReferenceIdeal.dot_S8x128x2304_S8x2304x2304_S8x128x2304_2_2_1_1_0_0.contr.Idx) :
    (Cert.ReferenceIdeal.dot_S8x128x2304_S8x2304x2304_S8x128x2304_2_2_1_1_0_0.rhsIdx (ix3 n r s) k 0).val = n.val := rfl

/-- Right operand, free axis: the output's column coordinate. -/
theorem ref_rhsIdx_axis1 (n : Fin 8) (r : Fin 128) (s : Fin 2304)
    (k : Cert.ReferenceIdeal.dot_S8x128x2304_S8x2304x2304_S8x128x2304_2_2_1_1_0_0.contr.Idx) :
    (Cert.ReferenceIdeal.dot_S8x128x2304_S8x2304x2304_S8x128x2304_2_2_1_1_0_0.rhsIdx (ix3 n r s) k 1).val = s.val := rfl

/-- Right operand, contracted axis: the contraction index's one coordinate. -/
theorem ref_rhsIdx_axis2 (n : Fin 8) (r : Fin 128) (s : Fin 2304)
    (k : Cert.ReferenceIdeal.dot_S8x128x2304_S8x2304x2304_S8x128x2304_2_2_1_1_0_0.contr.Idx) :
    (Cert.ReferenceIdeal.dot_S8x128x2304_S8x2304x2304_S8x128x2304_2_2_1_1_0_0.rhsIdx (ix3 n r s) k 2).val
      = (k ⟨0, Nat.one_pos⟩).val :=
  Cert.ReferenceIdeal.dot_S8x128x2304_S8x2304x2304_S8x128x2304_2_2_1_1_0_0.rhsIdx_val_of_single rfl (ix3 n r s) k

/-- The left operand's index at output `(n, r, s)` and contraction coordinate `k` is `(n, r, k)`. -/
theorem ref_lhsIdx (n : Fin 8) (r : Fin 128) (s : Fin 2304) (k : Fin 2304) :
    Cert.ReferenceIdeal.dot_S8x128x2304_S8x2304x2304_S8x128x2304_2_2_1_1_0_0.lhsIdx (ix3 n r s)
      ((contrEquiv1 Cert.ReferenceIdeal.dot_S8x128x2304_S8x2304x2304_S8x128x2304_2_2_1_1_0_0 2304 rfl rfl).symm k)
      = ix3 n r k := by
  have hk := contrEquiv1_symm_val Cert.ReferenceIdeal.dot_S8x128x2304_S8x2304x2304_S8x128x2304_2_2_1_1_0_0 2304 rfl rfl k
  funext a
  refine Fin.ext ?_
  match a with
  | ⟨0, _⟩ => exact ref_lhsIdx_axis0 n r s _
  | ⟨1, _⟩ => exact ref_lhsIdx_axis1 n r s _
  | ⟨2, _⟩ => exact (ref_lhsIdx_axis2 n r s _).trans hk

/-- The right operand's index there is `(n, s, k)`. -/
theorem ref_rhsIdx (n : Fin 8) (r : Fin 128) (s : Fin 2304) (k : Fin 2304) :
    Cert.ReferenceIdeal.dot_S8x128x2304_S8x2304x2304_S8x128x2304_2_2_1_1_0_0.rhsIdx (ix3 n r s)
      ((contrEquiv1 Cert.ReferenceIdeal.dot_S8x128x2304_S8x2304x2304_S8x128x2304_2_2_1_1_0_0 2304 rfl rfl).symm k)
      = ix3 n s k := by
  have hk := contrEquiv1_symm_val Cert.ReferenceIdeal.dot_S8x128x2304_S8x2304x2304_S8x128x2304_2_2_1_1_0_0 2304 rfl rfl k
  funext a
  refine Fin.ext ?_
  match a with
  | ⟨0, _⟩ => exact ref_rhsIdx_axis0 n r s _
  | ⟨1, _⟩ => exact ref_rhsIdx_axis1 n r s _
  | ⟨2, _⟩ => exact (ref_rhsIdx_axis2 n r s _).trans hk

/-- The reference's one batched product (batch axis 0 of both operands, contracted axis 2 of both) at entry
    `(n, r, s)`: the contraction's sum re-indexed by its one coordinate, with the operand indices above. -/
theorem dotGeneral_batched_apply (X : FVec Ideal Cert.ReferenceIdeal.S8x128x2304 .f32)
    (M : FVec Ideal Cert.ReferenceIdeal.S8x2304x2304 .f32) (n : Fin 8) (r : Fin 128) (s : Fin 2304) :
    Host.dotGeneral Cert.ReferenceIdeal.dot_S8x128x2304_S8x2304x2304_S8x128x2304_2_2_1_1_0_0 none X M (ix3 n r s)
      = bmmAt X M n r s := by
  show FloatOps.dotGeneral _ none .single X M (ix3 n r s) = _
  rw [Ideal.dotGeneral_apply,
    ← Equiv.sum_comp (contrEquiv1 Cert.ReferenceIdeal.dot_S8x128x2304_S8x2304x2304_S8x128x2304_2_2_1_1_0_0 2304 rfl rfl).symm]
  refine Finset.sum_congr rfl fun k _ => ?_
  rw [ref_lhsIdx, ref_rhsIdx]

end Reference

end Cert.ValueAlg

end
-- ==== Proof.KernelValue.lean ====
/-
  The kernel's output array after the run, on the extended reals.

  At grid point `t` the body overwrites block `t` of the output array — rows `(t, ·, ·)` — with the product of block
  `t` of the first staged array by block `t` of the second, the second contracted on its last axis. The eight blocks
  tile the output array, so after the run its entry `(n, r, s)` is `Σ_k x[n, r, k] · M[n, s, k]` over the two staged
  arrays as the region finds them; the one host line after the region reshapes that array into the result.
-/
import proofs.«151331_j73959336837140_1_alg».proof.Proof.FrameKI
import proofs.«151331_j73959336837140_1_alg».proof.Proof.ValueAlg
import Idealize.ShloMosaic.Lib.Pipeline.Value
import Idealize.ShloMosaic.Lib.ValueIdx
import Idealize.ShloMosaic.Lib.StableHlo.Run

-- membership of an index in a rectangle with axes of length 2304 recurses once per coordinate
set_option maxRecDepth 16384

noncomputable section

namespace Cert.KernelIdeal.HValue

open Cert.KernelIdeal Cert.KernelIdeal.Gen Cert.KernelIdeal.HFrame Cert.ValueAlg
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ) (ρ : Dev nD → PrngReg)

/-- Entry `(n, r, s)` of the output array: `Σ_k x[n, r, k] · M[n, s, k]` over the two staged arrays as the region
    finds them. -/
def prod3 (c : Dev nD) : S8x128x2304.Idx → EReal := fun j =>
  bmmAt (V m c main_v103) (V m c main_v102) (j 0) (j 1) (j 2)

/-- Block `t` of the first staged array, at its literal type. -/
abbrev xblk (c : Dev nD) (t : Fin cfg0.N) : Vec Ideal S1x128x2304 .bf16 := iblk m c 0 t
/-- Block `t` of the second staged array, at its literal type. -/
abbrev mblk (c : Dev nD) (t : Fin cfg0.N) : Vec Ideal S1x2304x2304 .bf16 := iblk m c 1 t

theorem hz : (![0, 0, 0] : Fin 3 → Nat) = fun _ => 0 := funext fun a => by fin_cases a <;> rfl

/-- The body's payload at any index of its block: the leading coordinate can only be `0`. -/
theorem pay_at (x0 : Vec Ideal S1x128x2304 .bf16) (x1 : Vec Ideal S1x2304x2304 .bf16) (j : S1x128x2304.Idx) :
    k0_pay1 (F := Ideal) x0 x1 j
      = ∑ k : Fin 2304, x0 (ix3 (0 : Fin 1) (j 1 : Fin 128) k) * x1 (ix3 (0 : Fin 1) (j 2 : Fin 2304) k) := by
  have hj : j = ix3 (0 : Fin 1) (j 1 : Fin 128) (j 2 : Fin 2304) := by
    funext a
    match a with
    | ⟨0, _⟩ => exact Subsingleton.elim (α := Fin 1) _ _
    | ⟨1, _⟩ => rfl
    | ⟨2, _⟩ => rfl
  exact (congrArg (k0_pay1 (F := Ideal) x0 x1) hj).trans (pay_apply x0 x1 (j 1) (j 2))

/-- The printed index maps, decided over the grid: the three windows move together along the leading axis and stay at
    block `0` on the other two. -/
theorem idx_facts : ∀ t : Fin cfg0.N,
    win0_0.index t (0 : Fin 3) = win0_2.index t (0 : Fin 3) ∧ win0_1.index t (0 : Fin 3) = win0_2.index t (0 : Fin 3)
    ∧ win0_0.index t (1 : Fin 3) = 0 ∧ win0_0.index t (2 : Fin 3) = 0
    ∧ win0_1.index t (1 : Fin 3) = 0 ∧ win0_1.index t (2 : Fin 3) = 0
    ∧ win0_2.index t (1 : Fin 3) = 0 ∧ win0_2.index t (2 : Fin 3) = 0 ∧ win0_2.index t (0 : Fin 3) ≤ 7 :=
  (by decide +kernel : ∀ t : Fin grid0.N, _)

/-- Every leading block index is some point's. -/
theorem idx_onto : ∀ q : Fin 8, ∃ t : Fin cfg0.N, win0_2.index t = ![q.val, 0, 0] :=
  (by decide +kernel : ∀ q : Fin 8, ∃ t : Fin grid0.N, win0_2.index t = ![q.val, 0, 0])

/-- The first staged array as the region finds it, at its literal type. -/
abbrev xarr (c : Dev nD) : Vec Ideal S8x128x2304 .bf16 := V m c main_v103
/-- The second staged array as the region finds it, at its literal type. -/
abbrev marr (c : Dev nD) : Vec Ideal S8x2304x2304 .bf16 := V m c main_v102

/-- Index `j` of the output's block at point `t`, placed in the output array: on each axis the block's index times the
    block's extent plus the coordinate inside the block. -/
abbrev oidx (t : Fin cfg0.N) (j : S1x128x2304.Idx) : S8x128x2304.Idx := ((cfg0.win 2).blk t).view.emb j

/-- Row `j 1` of the first input's block at point `t` is row `(oidx 0, oidx 1)` of the first staged array. -/
theorem xblk_read (c : Dev nD) (t : Fin cfg0.N) (j : S1x128x2304.Idx) (k : Fin 2304) :
    xblk m c t (ix3 (0 : Fin 1) (j 1 : Fin 128) k)
      = xarr m c (ix3 (oidx t j 0 : Fin 8) (oidx t j 1 : Fin 128) k) := by
  obtain ⟨e0, e1, e2, e3, e4, e5, e6, e7, e8⟩ := idx_facts t
  show xarr m c (((cfg0.win 0).blk t).view.emb (ix3 (0 : Fin 1) (j 1 : Fin 128) k)) = _
  refine congrArg (xarr m c) ?_
  funext a; apply Fin.ext
  match a with
  | ⟨0, _⟩ =>
    show win0_0.index t (0 : Fin 3) * 1 + 1 * 0 = win0_2.index t (0 : Fin 3) * 1 + 1 * (j 0).val
    have hj : (j 0).val < 1 := (j 0).isLt
    omega
  | ⟨1, _⟩ =>
    show win0_0.index t (1 : Fin 3) * 128 + 1 * (j 1).val = win0_2.index t (1 : Fin 3) * 128 + 1 * (j 1).val
    omega
  | ⟨2, _⟩ =>
    show win0_0.index t (2 : Fin 3) * 2304 + 1 * k.val = k.val
    omega

/-- Row `j 2` of the second input's block at point `t` is row `(oidx 0, oidx 2)` of the second staged array. -/
theorem mblk_read (c : Dev nD) (t : Fin cfg0.N) (j : S1x128x2304.Idx) (k : Fin 2304) :
    mblk m c t (ix3 (0 : Fin 1) (j 2 : Fin 2304) k)
      = marr m c (ix3 (oidx t j 0 : Fin 8) (oidx t j 2 : Fin 2304) k) := by
  obtain ⟨e0, e1, e2, e3, e4, e5, e6, e7, e8⟩ := idx_facts t
  show marr m c (((cfg0.win 1).blk t).view.emb (ix3 (0 : Fin 1) (j 2 : Fin 2304) k)) = _
  refine congrArg (marr m c) ?_
  funext a; apply Fin.ext
  match a with
  | ⟨0, _⟩ =>
    show win0_1.index t (0 : Fin 3) * 1 + 1 * 0 = win0_2.index t (0 : Fin 3) * 1 + 1 * (j 0).val
    have hj : (j 0).val < 1 := (j 0).isLt
    omega
  | ⟨1, _⟩ =>
    show win0_1.index t (1 : Fin 3) * 2304 + 1 * (j 2).val = win0_2.index t (2 : Fin 3) * 2304 + 1 * (j 2).val
    omega
  | ⟨2, _⟩ =>
    show win0_1.index t (2 : Fin 3) * 2304 + 1 * k.val = k.val
    omega

/-- What point `t` writes back is block `t` of the product array. -/
theorem flushed_eq (c : Dev nD) (t : Fin cfg0.N) :
    (dats m 0 c).flushed 2 t = ((cfg0.win 2).blk t).view.read (Elt Ideal) (prod3 m c) := by
  show (cfg0.win 2).cut (grid0.coords t) ((dats m 0 c).after 2 t) = _
  rw [after0_2]
  unfold out0_2
  rw [View.canon_unit_zero hz]
  simp only [View.ld_unit_zero (S := S1x128x2304) hz, View.ld_unit_zero (S := S1x2304x2304) hz]
  funext j
  show k0_pay1 (F := Ideal) (xblk m c t) (mblk m c t) j
    = ∑ k : Fin 2304, xarr m c (ix3 (oidx t j 0 : Fin 8) (oidx t j 1 : Fin 128) k)
        * marr m c (ix3 (oidx t j 0 : Fin 8) (oidx t j 2 : Fin 2304) k)
  refine (pay_at (xblk m c t) (mblk m c t) j).trans ?_
  refine Finset.sum_congr rfl fun k _ => ?_
  rw [xblk_read m c t j k, mblk_read m c t j k]

/-- An index of the output array is in point `t`'s block iff each coordinate is in the block's range on its axis. -/
theorem mem_blk (t : Fin cfg0.N) (i : S8x128x2304.Idx) :
    i ∈ ((cfg0.win 2).blk t).view.set ↔ ∀ a : Fin 3, win0_2.index t a * S1x128x2304.size a ≤ (i a).val
      ∧ (i a).val < win0_2.index t a * S1x128x2304.size a + S1x128x2304.size a := by
  show i ∈ ((View.whole main_v104).slice (win0_2.rect t)).set ↔ _
  rw [View.set_slice_whole, Rect.mem_set_unit]
  exact Iff.rfl

/-- The eight blocks tile the output array: index `i` lies in the block of the point whose leading block index is
    `i 0`. -/
theorem cover (i : S8x128x2304.Idx) :
    ∃ t : Fin cfg0.N, (cfg0.win 2).flush t = true ∧ i ∈ ((cfg0.win 2).blk t).view.set := by
  have hi0 : (i 0).val < 8 := (i 0).isLt
  have hi1 : (i 1).val < 128 := (i 1).isLt
  have hi2 : (i 2).val < 2304 := (i 2).isLt
  obtain ⟨t, ht⟩ := idx_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 128 ≤ (i 1).val ∧ (i 1).val < win0_2.index t (1 : Fin 3) * 128 + 128
    omega
  | ⟨2, _⟩ =>
    show win0_2.index t (2 : Fin 3) * 2304 ≤ (i 2).val ∧ (i 2).val < win0_2.index t (2 : Fin 3) * 2304 + 2304
    omega

/-- The output array after the run is the product array. -/
theorem arr_final (c : Dev nD) : (dats m 0 c).arrAt 2 cfg0.N = prod3 m c :=
  (dats m 0 c).arrAt_eq_of_cover 2 (prod3 m c) (fun t _ => flushed_eq m c t) cover

/-- The one host operation after the region reshapes the output array into the result. -/
theorem result_eq (c : Dev nD) :
    Pipeline.afterTail₀ cfgs (dats m) 0 (V0 m) [hostOps1] c main_v105
      = shapeCast S8x128x48x48 (prod3 m c) shapeCasts_S8x128x2304_S8x128x48x48 := by
  unfold Pipeline.afterTail₀
  show StableHlo.after hostOps1 _ (Proc.devRef .tc main_v105) = _
  after_results
  have hw := (Pipeline.withArrays_arr spec0 launch0.win.arr_inj c (V0 m c)
    (fun w => (dats m 0 c).arrAt w cfg0.N) 2).trans (arr_final m c)
  exact congrArg (fun X => shapeCast S8x128x48x48 X shapeCasts_S8x128x2304_S8x128x48x48) hw

/-- The run of the program on the extended reals: it terminates; the result array is the reshaped product array, and both
    argument arrays end as launched. -/
theorem kernel_run : θ_run defs (onTc (τ := τ) (main (F := Ideal))) ⟨m, fun _ => 0, ρ⟩ fun r => ∀ c : Dev nD,
      r.2.mem ((c.tc : Thread nD τ).loc main_v105)
        = shapeCast S8x128x48x48 (prod3 m c) shapeCasts_S8x128x2304_S8x128x48x48
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v105 (Pipeline.mem_restRefs_of main_v105 (by decide) (by decide))).trans (result_eq m c),
     ((h c).2 main_arg0 (Pipeline.mem_restRefs_of main_arg0 (by decide) (by decide))).trans (W_main_arg0 m c),
     ((h c).2 main_arg1 (Pipeline.mem_restRefs_of main_arg1 (by decide) (by decide))).trans (W_main_arg1 m c)⟩)
    (run_main m ρ)

end Cert.KernelIdeal.HValue

end
-- ==== Proof.RefRun.lean ====
import proofs.«151331_j73959336837140_1_alg».proof.Proof.Gen.ReferenceIdeal
import Idealize.ShloMosaic.Lib.StableHlo.Run
import Idealize.ShloMosaic.Lib.Pipeline.Frame

/-! The reference program as a straight line of operations, and its run.

The reference computes, from the argument `x : 8×128×48×48` and the sampling grid `g : 8×48×48×2`, first an
interpolation matrix `M : 8×2304×2304` (every operation through the scatter-add: the grid's coordinates clipped,
their floors and fractional parts, the four bilinear weights masked by the in-range test, the four flat corner
indices, and the weights scatter-added into a zero matrix at (batch, pixel, corner index)), and then the batched
product of `x`, flattened to `8×128×2304`, with `M` contracted over `M`'s LAST axis, reshaped back to
`8×128×48×48`. Here the program is written as the list of its operations with the two calls of the clipping
function inlined, @main is proved to be that line, and its run is read back: every buffer ends at the fold of the
operations over the launch contents. The last three operations are kept apart from the ones that build `M`, so
that the result is stated as a function `refOut` of `x` and of whatever the first stretch leaves in `M`'s buffer. -/

set_option maxRecDepth 4096

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- the operations through the scatter-add that builds the interpolation matrix (result main_v100), calls inlined, in program order -/
abbrev opsMat : List (HloOp τ sig (Elt F)) :=
  ( StableHlo.nullary main_cst (fun i => FloatOps.ofBits .f32 (lit0 (S4x2.rowMajor i)))
  :: StableHlo.unary main_arg1 main_v0 ((extractStridedSlice S8x48x48x1 ![0, 0, 0, 0] · slices_S8x48x48x2_S8x48x48x1_0_0_0_0) : (⟨S8x48x48x2, .f32⟩ : BufTy).Contents (Elt F) → (⟨S8x48x48x1, .f32⟩ : BufTy).Contents (Elt F))
  :: StableHlo.reshape main_v0 main_v1 rfl shapeCasts_S8x48x48x1_S8x48x48
  :: StableHlo.nullary main_cst_0 (constant S_ .f32 0xBF000000#32)
  :: StableHlo.unary main_cst_0 main_v2 (broadcastInDim S8x48x48 ![] bcast_S_S8x48x48 : (⟨S_, .f32⟩ : BufTy).Contents (Elt F) → (⟨S8x48x48, .f32⟩ : BufTy).Contents (Elt F))
  :: StableHlo.binary main_v1 main_v2 main_v3 (cmpf .oge : (⟨S8x48x48, .f32⟩ : BufTy).Contents (Elt F) → (⟨S8x48x48, .f32⟩ : BufTy).Contents (Elt F) → (⟨S8x48x48, .i1⟩ : BufTy).Contents (Elt F))
  :: StableHlo.nullary main_c (constantI S_ 1 1#1)
  :: StableHlo.binary main_v3 main_c main_v4 ((fun x v => Host.reduce IntOp.andi x v reducesTo_S8x48x48_S48x48_d0 h_S_) : (⟨S8x48x48, .i1⟩ : BufTy).Contents (Elt F) → (⟨S_, .i1⟩ : BufTy).Contents (Elt F) → (⟨S48x48, .i1⟩ : BufTy).Contents (Elt F))
  :: StableHlo.unary main_arg1 main_v5 ((extractStridedSlice S8x48x48x1 ![0, 0, 0, 0] · slices_S8x48x48x2_S8x48x48x1_0_0_0_0) : (⟨S8x48x48x2, .f32⟩ : BufTy).Contents (Elt F) → (⟨S8x48x48x1, .f32⟩ : BufTy).Contents (Elt F))
  :: StableHlo.reshape main_v5 main_v6 rfl shapeCasts_S8x48x48x1_S8x48x48
  :: StableHlo.nullary main_cst_1 (constant S_ .f32 0x423E0000#32)
  :: StableHlo.unary main_cst_1 main_v7 (broadcastInDim S8x48x48 ![] bcast_S_S8x48x48 : (⟨S_, .f32⟩ : BufTy).Contents (Elt F) → (⟨S8x48x48, .f32⟩ : BufTy).Contents (Elt F))
  :: StableHlo.binary main_v6 main_v7 main_v8 (cmpf .ole : (⟨S8x48x48, .f32⟩ : BufTy).Contents (Elt F) → (⟨S8x48x48, .f32⟩ : BufTy).Contents (Elt F) → (⟨S8x48x48, .i1⟩ : BufTy).Contents (Elt F))
  :: StableHlo.nullary main_c_2 (constantI S_ 1 1#1)
  :: StableHlo.binary main_v8 main_c_2 main_v9 ((fun x v => Host.reduce IntOp.andi x v reducesTo_S8x48x48_S48x48_d0 h_S_) : (⟨S8x48x48, .i1⟩ : BufTy).Contents (Elt F) → (⟨S_, .i1⟩ : BufTy).Contents (Elt F) → (⟨S48x48, .i1⟩ : BufTy).Contents (Elt F))
  :: StableHlo.binary main_v4 main_v9 main_v10 (andi : (⟨S48x48, .i1⟩ : BufTy).Contents (Elt F) → (⟨S48x48, .i1⟩ : BufTy).Contents (Elt F) → (⟨S48x48, .i1⟩ : BufTy).Contents (Elt F))
  :: StableHlo.unary main_arg1 main_v11 ((extractStridedSlice S8x48x48x1 ![0, 0, 0, 1] · slices_S8x48x48x2_S8x48x48x1_0_0_0_1) : (⟨S8x48x48x2, .f32⟩ : BufTy).Contents (Elt F) → (⟨S8x48x48x1, .f32⟩ : BufTy).Contents (Elt F))
  :: StableHlo.reshape main_v11 main_v12 rfl shapeCasts_S8x48x48x1_S8x48x48
  :: StableHlo.nullary main_cst_3 (constant S_ .f32 0xBF000000#32)
  :: StableHlo.unary main_cst_3 main_v13 (broadcastInDim S8x48x48 ![] bcast_S_S8x48x48 : (⟨S_, .f32⟩ : BufTy).Contents (Elt F) → (⟨S8x48x48, .f32⟩ : BufTy).Contents (Elt F))
  :: StableHlo.binary main_v12 main_v13 main_v14 (cmpf .oge : (⟨S8x48x48, .f32⟩ : BufTy).Contents (Elt F) → (⟨S8x48x48, .f32⟩ : BufTy).Contents (Elt F) → (⟨S8x48x48, .i1⟩ : BufTy).Contents (Elt F))
  :: StableHlo.nullary main_c_4 (constantI S_ 1 1#1)
  :: StableHlo.binary main_v14 main_c_4 main_v15 ((fun x v => Host.reduce IntOp.andi x v reducesTo_S8x48x48_S48x48_d0 h_S_) : (⟨S8x48x48, .i1⟩ : BufTy).Contents (Elt F) → (⟨S_, .i1⟩ : BufTy).Contents (Elt F) → (⟨S48x48, .i1⟩ : BufTy).Contents (Elt F))
  :: StableHlo.unary main_arg1 main_v16 ((extractStridedSlice S8x48x48x1 ![0, 0, 0, 1] · slices_S8x48x48x2_S8x48x48x1_0_0_0_1) : (⟨S8x48x48x2, .f32⟩ : BufTy).Contents (Elt F) → (⟨S8x48x48x1, .f32⟩ : BufTy).Contents (Elt F))
  :: StableHlo.reshape main_v16 main_v17 rfl shapeCasts_S8x48x48x1_S8x48x48
  :: StableHlo.nullary main_cst_5 (constant S_ .f32 0x423E0000#32)
  :: StableHlo.unary main_cst_5 main_v18 (broadcastInDim S8x48x48 ![] bcast_S_S8x48x48 : (⟨S_, .f32⟩ : BufTy).Contents (Elt F) → (⟨S8x48x48, .f32⟩ : BufTy).Contents (Elt F))
  :: StableHlo.binary main_v17 main_v18 main_v19 (cmpf .ole : (⟨S8x48x48, .f32⟩ : BufTy).Contents (Elt F) → (⟨S8x48x48, .f32⟩ : BufTy).Contents (Elt F) → (⟨S8x48x48, .i1⟩ : BufTy).Contents (Elt F))
  :: StableHlo.nullary main_c_6 (constantI S_ 1 1#1)
  :: StableHlo.binary main_v19 main_c_6 main_v20 ((fun x v => Host.reduce IntOp.andi x v reducesTo_S8x48x48_S48x48_d0 h_S_) : (⟨S8x48x48, .i1⟩ : BufTy).Contents (Elt F) → (⟨S_, .i1⟩ : BufTy).Contents (Elt F) → (⟨S48x48, .i1⟩ : BufTy).Contents (Elt F))
  :: StableHlo.binary main_v15 main_v20 main_v21 (andi : (⟨S48x48, .i1⟩ : BufTy).Contents (Elt F) → (⟨S48x48, .i1⟩ : BufTy).Contents (Elt F) → (⟨S48x48, .i1⟩ : BufTy).Contents (Elt F))
  :: StableHlo.binary main_v10 main_v21 main_v22 (andi : (⟨S48x48, .i1⟩ : BufTy).Contents (Elt F) → (⟨S48x48, .i1⟩ : BufTy).Contents (Elt F) → (⟨S48x48, .i1⟩ : BufTy).Contents (Elt F))
  :: StableHlo.reshape main_v22 main_v23 rfl shapeCasts_S48x48_S2304
  :: StableHlo.reshape main_arg1 main_v24 rfl shapeCasts_S8x48x48x2_S8x2304x2
  :: StableHlo.unary main_v24 main_v25 ((extractStridedSlice S8x2304x1 ![0, 0, 0] · slices_S8x2304x2_S8x2304x1_0_0_0) : (⟨S8x2304x2, .f32⟩ : BufTy).Contents (Elt F) → (⟨S8x2304x1, .f32⟩ : BufTy).Contents (Elt F))
  :: StableHlo.reshape main_v25 main_v26 rfl shapeCasts_S8x2304x1_S8x2304
  :: StableHlo.nullary main_cst_7 (constant S_ .f32 0x3727C5AC#32)
  :: StableHlo.nullary main_cst_8 (constant S_ .f32 0x423BFFFD#32)
  :: StableHlo.TRef.unary (.of main_cst_7 : StableHlo.TRef sig ⟨S_, .f32⟩) (.of main_call0_v0 : StableHlo.TRef sig ⟨S_, .f32⟩) id
  :: StableHlo.TRef.unary (.of main_call0_v0 : StableHlo.TRef sig ⟨S_, .f32⟩) (.of main_call0_v1 : StableHlo.TRef sig ⟨S8x2304, .f32⟩) (broadcastInDim S8x2304 ![] bcast_S_S8x2304)
  :: StableHlo.TRef.binary (.of main_call0_v1 : StableHlo.TRef sig ⟨S8x2304, .f32⟩) (.of main_v26 : StableHlo.TRef sig ⟨S8x2304, .f32⟩) (.of main_call0_v2 : StableHlo.TRef sig ⟨S8x2304, .f32⟩) maximumf
  :: StableHlo.TRef.unary (.of main_cst_8 : StableHlo.TRef sig ⟨S_, .f32⟩) (.of main_call0_v3 : StableHlo.TRef sig ⟨S_, .f32⟩) id
  :: StableHlo.TRef.unary (.of main_call0_v3 : StableHlo.TRef sig ⟨S_, .f32⟩) (.of main_call0_v4 : StableHlo.TRef sig ⟨S8x2304, .f32⟩) (broadcastInDim S8x2304 ![] bcast_S_S8x2304)
  :: StableHlo.TRef.binary (.of main_call0_v4 : StableHlo.TRef sig ⟨S8x2304, .f32⟩) (.of main_call0_v2 : StableHlo.TRef sig ⟨S8x2304, .f32⟩) (.of main_v27 : StableHlo.TRef sig ⟨S8x2304, .f32⟩) minimumf
  :: StableHlo.unary main_v24 main_v28 ((extractStridedSlice S8x2304x1 ![0, 0, 1] · slices_S8x2304x2_S8x2304x1_0_0_1) : (⟨S8x2304x2, .f32⟩ : BufTy).Contents (Elt F) → (⟨S8x2304x1, .f32⟩ : BufTy).Contents (Elt F))
  :: StableHlo.reshape main_v28 main_v29 rfl shapeCasts_S8x2304x1_S8x2304
  :: StableHlo.nullary main_cst_9 (constant S_ .f32 0x3727C5AC#32)
  :: StableHlo.nullary main_cst_10 (constant S_ .f32 0x423BFFFD#32)
  :: StableHlo.TRef.unary (.of main_cst_9 : StableHlo.TRef sig ⟨S_, .f32⟩) (.of main_call1_v0 : StableHlo.TRef sig ⟨S_, .f32⟩) id
  :: StableHlo.TRef.unary (.of main_call1_v0 : StableHlo.TRef sig ⟨S_, .f32⟩) (.of main_call1_v1 : StableHlo.TRef sig ⟨S8x2304, .f32⟩) (broadcastInDim S8x2304 ![] bcast_S_S8x2304)
  :: StableHlo.TRef.binary (.of main_call1_v1 : StableHlo.TRef sig ⟨S8x2304, .f32⟩) (.of main_v29 : StableHlo.TRef sig ⟨S8x2304, .f32⟩) (.of main_call1_v2 : StableHlo.TRef sig ⟨S8x2304, .f32⟩) maximumf
  :: StableHlo.TRef.unary (.of main_cst_10 : StableHlo.TRef sig ⟨S_, .f32⟩) (.of main_call1_v3 : StableHlo.TRef sig ⟨S_, .f32⟩) id
  :: StableHlo.TRef.unary (.of main_call1_v3 : StableHlo.TRef sig ⟨S_, .f32⟩) (.of main_call1_v4 : StableHlo.TRef sig ⟨S8x2304, .f32⟩) (broadcastInDim S8x2304 ![] bcast_S_S8x2304)
  :: StableHlo.TRef.binary (.of main_call1_v4 : StableHlo.TRef sig ⟨S8x2304, .f32⟩) (.of main_call1_v2 : StableHlo.TRef sig ⟨S8x2304, .f32⟩) (.of main_v30 : StableHlo.TRef sig ⟨S8x2304, .f32⟩) minimumf
  :: StableHlo.unary main_v27 main_v31 (broadcastInDim S8x2304x1 ![0, 1] bcast_S8x2304_S8x2304x1_0_1 : (⟨S8x2304, .f32⟩ : BufTy).Contents (Elt F) → (⟨S8x2304x1, .f32⟩ : BufTy).Contents (Elt F))
  :: StableHlo.unary main_v30 main_v32 (broadcastInDim S8x2304x1 ![0, 1] bcast_S8x2304_S8x2304x1_0_1 : (⟨S8x2304, .f32⟩ : BufTy).Contents (Elt F) → (⟨S8x2304x1, .f32⟩ : BufTy).Contents (Elt F))
  :: StableHlo.binary main_v31 main_v32 main_v33 ((fun a b => concatenate S8x2304x2 2 [⟨S8x2304x1, a⟩, ⟨S8x2304x1, b⟩] concatenates_S8x2304x1_S8x2304x1_S8x2304x2_d2) : (⟨S8x2304x1, .f32⟩ : BufTy).Contents (Elt F) → (⟨S8x2304x1, .f32⟩ : BufTy).Contents (Elt F) → (⟨S8x2304x2, .f32⟩ : BufTy).Contents (Elt F))
  :: StableHlo.unary main_v33 main_v34 (Host.floor : (⟨S8x2304x2, .f32⟩ : BufTy).Contents (Elt F) → (⟨S8x2304x2, .f32⟩ : BufTy).Contents (Elt F))
  :: StableHlo.unary main_v34 main_v35 (broadcastInDim S8x2304x1x2 ![0, 1, 3] bcast_S8x2304x2_S8x2304x1x2_0_1_3 : (⟨S8x2304x2, .f32⟩ : BufTy).Contents (Elt F) → (⟨S8x2304x1x2, .f32⟩ : BufTy).Contents (Elt F))
  :: StableHlo.unary main_cst main_v36 (broadcastInDim S1x1x4x2 ![2, 3] bcast_S4x2_S1x1x4x2_2_3 : (⟨S4x2, .f32⟩ : BufTy).Contents (Elt F) → (⟨S1x1x4x2, .f32⟩ : BufTy).Contents (Elt F))
  :: StableHlo.unary main_v35 main_v37 (broadcastInDim S8x2304x4x2 ![0, 1, 2, 3] bcast_S8x2304x1x2_S8x2304x4x2_0_1_2_3 : (⟨S8x2304x1x2, .f32⟩ : BufTy).Contents (Elt F) → (⟨S8x2304x4x2, .f32⟩ : BufTy).Contents (Elt F))
  :: StableHlo.unary main_v36 main_v38 (broadcastInDim S8x2304x4x2 ![0, 1, 2, 3] bcast_S1x1x4x2_S8x2304x4x2_0_1_2_3 : (⟨S1x1x4x2, .f32⟩ : BufTy).Contents (Elt F) → (⟨S8x2304x4x2, .f32⟩ : BufTy).Contents (Elt F))
  :: StableHlo.binary main_v37 main_v38 main_v39 (addf : (⟨S8x2304x4x2, .f32⟩ : BufTy).Contents (Elt F) → (⟨S8x2304x4x2, .f32⟩ : BufTy).Contents (Elt F) → (⟨S8x2304x4x2, .f32⟩ : BufTy).Contents (Elt F))
  :: StableHlo.unary main_v39 main_v40 ((extractStridedSlice S8x2304x4x1 ![0, 0, 0, 0] · slices_S8x2304x4x2_S8x2304x4x1_0_0_0_0) : (⟨S8x2304x4x2, .f32⟩ : BufTy).Contents (Elt F) → (⟨S8x2304x4x1, .f32⟩ : BufTy).Contents (Elt F))
  :: StableHlo.reshape main_v40 main_v41 rfl shapeCasts_S8x2304x4x1_S8x2304x4
  :: StableHlo.nullary main_cst_11 (constant S_ .f32 0x42400000#32)
  :: StableHlo.unary main_cst_11 main_v42 (broadcastInDim S8x2304x4 ![] bcast_S_S8x2304x4 : (⟨S_, .f32⟩ : BufTy).Contents (Elt F) → (⟨S8x2304x4, .f32⟩ : BufTy).Contents (Elt F))
  :: StableHlo.binary main_v41 main_v42 main_v43 (mulf : (⟨S8x2304x4, .f32⟩ : BufTy).Contents (Elt F) → (⟨S8x2304x4, .f32⟩ : BufTy).Contents (Elt F) → (⟨S8x2304x4, .f32⟩ : BufTy).Contents (Elt F))
  :: StableHlo.unary main_v39 main_v44 ((extractStridedSlice S8x2304x4x1 ![0, 0, 0, 1] · slices_S8x2304x4x2_S8x2304x4x1_0_0_0_1) : (⟨S8x2304x4x2, .f32⟩ : BufTy).Contents (Elt F) → (⟨S8x2304x4x1, .f32⟩ : BufTy).Contents (Elt F))
  :: StableHlo.reshape main_v44 main_v45 rfl shapeCasts_S8x2304x4x1_S8x2304x4
  :: StableHlo.binary main_v43 main_v45 main_v46 (addf : (⟨S8x2304x4, .f32⟩ : BufTy).Contents (Elt F) → (⟨S8x2304x4, .f32⟩ : BufTy).Contents (Elt F) → (⟨S8x2304x4, .f32⟩ : BufTy).Contents (Elt F))
  :: StableHlo.unary main_v46 main_v47 (fptosi 32 : (⟨S8x2304x4, .f32⟩ : BufTy).Contents (Elt F) → (⟨S8x2304x4, .i32⟩ : BufTy).Contents (Elt F))
  :: StableHlo.binary main_v33 main_v34 main_v48 (subf : (⟨S8x2304x2, .f32⟩ : BufTy).Contents (Elt F) → (⟨S8x2304x2, .f32⟩ : BufTy).Contents (Elt F) → (⟨S8x2304x2, .f32⟩ : BufTy).Contents (Elt F))
  :: StableHlo.unary main_v48 main_v49 ((extractStridedSlice S8x2304x1 ![0, 0, 0] · slices_S8x2304x2_S8x2304x1_0_0_0) : (⟨S8x2304x2, .f32⟩ : BufTy).Contents (Elt F) → (⟨S8x2304x1, .f32⟩ : BufTy).Contents (Elt F))
  :: StableHlo.reshape main_v49 main_v50 rfl shapeCasts_S8x2304x1_S8x2304
  :: StableHlo.unary main_v48 main_v51 ((extractStridedSlice S8x2304x1 ![0, 0, 1] · slices_S8x2304x2_S8x2304x1_0_0_1) : (⟨S8x2304x2, .f32⟩ : BufTy).Contents (Elt F) → (⟨S8x2304x1, .f32⟩ : BufTy).Contents (Elt F))
  :: StableHlo.reshape main_v51 main_v52 rfl shapeCasts_S8x2304x1_S8x2304
  :: StableHlo.nullary main_cst_12 (constant S_ .f32 0x3F800000#32)
  :: StableHlo.unary main_cst_12 main_v53 (broadcastInDim S8x2304 ![] bcast_S_S8x2304 : (⟨S_, .f32⟩ : BufTy).Contents (Elt F) → (⟨S8x2304, .f32⟩ : BufTy).Contents (Elt F))
  :: StableHlo.binary main_v53 main_v50 main_v54 (subf : (⟨S8x2304, .f32⟩ : BufTy).Contents (Elt F) → (⟨S8x2304, .f32⟩ : BufTy).Contents (Elt F) → (⟨S8x2304, .f32⟩ : BufTy).Contents (Elt F))
  :: StableHlo.nullary main_cst_13 (constant S_ .f32 0x3F800000#32)
  :: StableHlo.unary main_cst_13 main_v55 (broadcastInDim S8x2304 ![] bcast_S_S8x2304 : (⟨S_, .f32⟩ : BufTy).Contents (Elt F) → (⟨S8x2304, .f32⟩ : BufTy).Contents (Elt F))
  :: StableHlo.binary main_v55 main_v52 main_v56 (subf : (⟨S8x2304, .f32⟩ : BufTy).Contents (Elt F) → (⟨S8x2304, .f32⟩ : BufTy).Contents (Elt F) → (⟨S8x2304, .f32⟩ : BufTy).Contents (Elt F))
  :: StableHlo.binary main_v54 main_v56 main_v57 (mulf : (⟨S8x2304, .f32⟩ : BufTy).Contents (Elt F) → (⟨S8x2304, .f32⟩ : BufTy).Contents (Elt F) → (⟨S8x2304, .f32⟩ : BufTy).Contents (Elt F))
  :: StableHlo.nullary main_cst_14 (constant S_ .f32 0x3F800000#32)
  :: StableHlo.unary main_cst_14 main_v58 (broadcastInDim S8x2304 ![] bcast_S_S8x2304 : (⟨S_, .f32⟩ : BufTy).Contents (Elt F) → (⟨S8x2304, .f32⟩ : BufTy).Contents (Elt F))
  :: StableHlo.binary main_v58 main_v50 main_v59 (subf : (⟨S8x2304, .f32⟩ : BufTy).Contents (Elt F) → (⟨S8x2304, .f32⟩ : BufTy).Contents (Elt F) → (⟨S8x2304, .f32⟩ : BufTy).Contents (Elt F))
  :: StableHlo.binary main_v59 main_v52 main_v60 (mulf : (⟨S8x2304, .f32⟩ : BufTy).Contents (Elt F) → (⟨S8x2304, .f32⟩ : BufTy).Contents (Elt F) → (⟨S8x2304, .f32⟩ : BufTy).Contents (Elt F))
  :: StableHlo.nullary main_cst_15 (constant S_ .f32 0x3F800000#32)
  :: StableHlo.unary main_cst_15 main_v61 (broadcastInDim S8x2304 ![] bcast_S_S8x2304 : (⟨S_, .f32⟩ : BufTy).Contents (Elt F) → (⟨S8x2304, .f32⟩ : BufTy).Contents (Elt F))
  :: StableHlo.binary main_v61 main_v52 main_v62 (subf : (⟨S8x2304, .f32⟩ : BufTy).Contents (Elt F) → (⟨S8x2304, .f32⟩ : BufTy).Contents (Elt F) → (⟨S8x2304, .f32⟩ : BufTy).Contents (Elt F))
  :: StableHlo.binary main_v50 main_v62 main_v63 (mulf : (⟨S8x2304, .f32⟩ : BufTy).Contents (Elt F) → (⟨S8x2304, .f32⟩ : BufTy).Contents (Elt F) → (⟨S8x2304, .f32⟩ : BufTy).Contents (Elt F))
  :: StableHlo.binary main_v50 main_v52 main_v64 (mulf : (⟨S8x2304, .f32⟩ : BufTy).Contents (Elt F) → (⟨S8x2304, .f32⟩ : BufTy).Contents (Elt F) → (⟨S8x2304, .f32⟩ : BufTy).Contents (Elt F))
  :: StableHlo.unary main_v57 main_v65 (broadcastInDim S8x2304x1 ![0, 1] bcast_S8x2304_S8x2304x1_0_1 : (⟨S8x2304, .f32⟩ : BufTy).Contents (Elt F) → (⟨S8x2304x1, .f32⟩ : BufTy).Contents (Elt F))
  :: StableHlo.unary main_v60 main_v66 (broadcastInDim S8x2304x1 ![0, 1] bcast_S8x2304_S8x2304x1_0_1 : (⟨S8x2304, .f32⟩ : BufTy).Contents (Elt F) → (⟨S8x2304x1, .f32⟩ : BufTy).Contents (Elt F))
  :: StableHlo.unary main_v63 main_v67 (broadcastInDim S8x2304x1 ![0, 1] bcast_S8x2304_S8x2304x1_0_1 : (⟨S8x2304, .f32⟩ : BufTy).Contents (Elt F) → (⟨S8x2304x1, .f32⟩ : BufTy).Contents (Elt F))
  :: StableHlo.unary main_v64 main_v68 (broadcastInDim S8x2304x1 ![0, 1] bcast_S8x2304_S8x2304x1_0_1 : (⟨S8x2304, .f32⟩ : BufTy).Contents (Elt F) → (⟨S8x2304x1, .f32⟩ : BufTy).Contents (Elt F))
  :: StableHlo.nary ![main_v65, main_v66, main_v67, main_v68] main_v69 (fun u => concatenate S8x2304x4 2 [⟨S8x2304x1, u 0⟩, ⟨S8x2304x1, u 1⟩, ⟨S8x2304x1, u 2⟩, ⟨S8x2304x1, u 3⟩] concatenates_S8x2304x1_S8x2304x1_S8x2304x1_S8x2304x1_S8x2304x4_d2)
  :: StableHlo.unary main_v23 main_v70 (broadcastInDim S1x2304x1 ![1] bcast_S2304_S1x2304x1_1 : (⟨S2304, .i1⟩ : BufTy).Contents (Elt F) → (⟨S1x2304x1, .i1⟩ : BufTy).Contents (Elt F))
  :: StableHlo.unary main_v70 main_v71 (uitofp .f32 : (⟨S1x2304x1, .i1⟩ : BufTy).Contents (Elt F) → (⟨S1x2304x1, .f32⟩ : BufTy).Contents (Elt F))
  :: StableHlo.unary main_v71 main_v72 (broadcastInDim S8x2304x4 ![0, 1, 2] bcast_S1x2304x1_S8x2304x4_0_1_2 : (⟨S1x2304x1, .f32⟩ : BufTy).Contents (Elt F) → (⟨S8x2304x4, .f32⟩ : BufTy).Contents (Elt F))
  :: StableHlo.binary main_v69 main_v72 main_v73 (mulf : (⟨S8x2304x4, .f32⟩ : BufTy).Contents (Elt F) → (⟨S8x2304x4, .f32⟩ : BufTy).Contents (Elt F) → (⟨S8x2304x4, .f32⟩ : BufTy).Contents (Elt F))
  :: StableHlo.nullary main_cst_16 (constant S_ .f32 0x00000000#32)
  :: StableHlo.unary main_cst_16 main_v74 (broadcastInDim S8x2304x2304 ![] bcast_S_S8x2304x2304 : (⟨S_, .f32⟩ : BufTy).Contents (Elt F) → (⟨S8x2304x2304, .f32⟩ : BufTy).Contents (Elt F))
  :: StableHlo.nullary main_v75 (iotaInDim S8 32 0)
  :: StableHlo.unary main_v75 main_v76 (broadcastInDim S8x1x1 ![0] bcast_S8_S8x1x1_0 : (⟨S8, .i32⟩ : BufTy).Contents (Elt F) → (⟨S8x1x1, .i32⟩ : BufTy).Contents (Elt F))
  :: StableHlo.nullary main_v77 (iotaInDim S2304 32 0)
  :: StableHlo.unary main_v77 main_v78 (broadcastInDim S1x2304x1 ![1] bcast_S2304_S1x2304x1_1 : (⟨S2304, .i32⟩ : BufTy).Contents (Elt F) → (⟨S1x2304x1, .i32⟩ : BufTy).Contents (Elt F))
  :: StableHlo.nullary main_c_17 (constantI S_ 32 0#32)
  :: StableHlo.unary main_c_17 main_v79 (broadcastInDim S8x1x1 ![] bcast_S_S8x1x1 : (⟨S_, .i32⟩ : BufTy).Contents (Elt F) → (⟨S8x1x1, .i32⟩ : BufTy).Contents (Elt F))
  :: StableHlo.binary main_v76 main_v79 main_v80 (cmpi .slt : (⟨S8x1x1, .i32⟩ : BufTy).Contents (Elt F) → (⟨S8x1x1, .i32⟩ : BufTy).Contents (Elt F) → (⟨S8x1x1, .i1⟩ : BufTy).Contents (Elt F))
  :: StableHlo.nullary main_c_18 (constantI S_ 32 8#32)
  :: StableHlo.unary main_c_18 main_v81 (broadcastInDim S8x1x1 ![] bcast_S_S8x1x1 : (⟨S_, .i32⟩ : BufTy).Contents (Elt F) → (⟨S8x1x1, .i32⟩ : BufTy).Contents (Elt F))
  :: StableHlo.binary main_v76 main_v81 main_v82 (addi : (⟨S8x1x1, .i32⟩ : BufTy).Contents (Elt F) → (⟨S8x1x1, .i32⟩ : BufTy).Contents (Elt F) → (⟨S8x1x1, .i32⟩ : BufTy).Contents (Elt F))
  :: StableHlo.ternary main_v80 main_v82 main_v76 main_v83 (select : (⟨S8x1x1, .i1⟩ : BufTy).Contents (Elt F) → (⟨S8x1x1, .i32⟩ : BufTy).Contents (Elt F) → (⟨S8x1x1, .i32⟩ : BufTy).Contents (Elt F) → (⟨S8x1x1, .i32⟩ : BufTy).Contents (Elt F))
  :: StableHlo.nullary main_c_19 (constantI S_ 32 0#32)
  :: StableHlo.unary main_c_19 main_v84 (broadcastInDim S1x2304x1 ![] bcast_S_S1x2304x1 : (⟨S_, .i32⟩ : BufTy).Contents (Elt F) → (⟨S1x2304x1, .i32⟩ : BufTy).Contents (Elt F))
  :: StableHlo.binary main_v78 main_v84 main_v85 (cmpi .slt : (⟨S1x2304x1, .i32⟩ : BufTy).Contents (Elt F) → (⟨S1x2304x1, .i32⟩ : BufTy).Contents (Elt F) → (⟨S1x2304x1, .i1⟩ : BufTy).Contents (Elt F))
  :: StableHlo.nullary main_c_20 (constantI S_ 32 2304#32)
  :: StableHlo.unary main_c_20 main_v86 (broadcastInDim S1x2304x1 ![] bcast_S_S1x2304x1 : (⟨S_, .i32⟩ : BufTy).Contents (Elt F) → (⟨S1x2304x1, .i32⟩ : BufTy).Contents (Elt F))
  :: StableHlo.binary main_v78 main_v86 main_v87 (addi : (⟨S1x2304x1, .i32⟩ : BufTy).Contents (Elt F) → (⟨S1x2304x1, .i32⟩ : BufTy).Contents (Elt F) → (⟨S1x2304x1, .i32⟩ : BufTy).Contents (Elt F))
  :: StableHlo.ternary main_v85 main_v87 main_v78 main_v88 (select : (⟨S1x2304x1, .i1⟩ : BufTy).Contents (Elt F) → (⟨S1x2304x1, .i32⟩ : BufTy).Contents (Elt F) → (⟨S1x2304x1, .i32⟩ : BufTy).Contents (Elt F) → (⟨S1x2304x1, .i32⟩ : BufTy).Contents (Elt F))
  :: StableHlo.nullary main_c_21 (constantI S_ 32 0#32)
  :: StableHlo.unary main_c_21 main_v89 (broadcastInDim S8x2304x4 ![] bcast_S_S8x2304x4 : (⟨S_, .i32⟩ : BufTy).Contents (Elt F) → (⟨S8x2304x4, .i32⟩ : BufTy).Contents (Elt F))
  :: StableHlo.binary main_v47 main_v89 main_v90 (cmpi .slt : (⟨S8x2304x4, .i32⟩ : BufTy).Contents (Elt F) → (⟨S8x2304x4, .i32⟩ : BufTy).Contents (Elt F) → (⟨S8x2304x4, .i1⟩ : BufTy).Contents (Elt F))
  :: StableHlo.nullary main_c_22 (constantI S_ 32 2304#32)
  :: StableHlo.unary main_c_22 main_v91 (broadcastInDim S8x2304x4 ![] bcast_S_S8x2304x4 : (⟨S_, .i32⟩ : BufTy).Contents (Elt F) → (⟨S8x2304x4, .i32⟩ : BufTy).Contents (Elt F))
  :: StableHlo.binary main_v47 main_v91 main_v92 (addi : (⟨S8x2304x4, .i32⟩ : BufTy).Contents (Elt F) → (⟨S8x2304x4, .i32⟩ : BufTy).Contents (Elt F) → (⟨S8x2304x4, .i32⟩ : BufTy).Contents (Elt F))
  :: StableHlo.ternary main_v90 main_v92 main_v47 main_v93 (select : (⟨S8x2304x4, .i1⟩ : BufTy).Contents (Elt F) → (⟨S8x2304x4, .i32⟩ : BufTy).Contents (Elt F) → (⟨S8x2304x4, .i32⟩ : BufTy).Contents (Elt F) → (⟨S8x2304x4, .i32⟩ : BufTy).Contents (Elt F))
  :: StableHlo.unary main_v83 main_v94 (broadcastInDim S8x2304x4 ![0, 1, 2] bcast_S8x1x1_S8x2304x4_0_1_2 : (⟨S8x1x1, .i32⟩ : BufTy).Contents (Elt F) → (⟨S8x2304x4, .i32⟩ : BufTy).Contents (Elt F))
  :: StableHlo.unary main_v88 main_v95 (broadcastInDim S8x2304x4 ![0, 1, 2] bcast_S1x2304x1_S8x2304x4_0_1_2 : (⟨S1x2304x1, .i32⟩ : BufTy).Contents (Elt F) → (⟨S8x2304x4, .i32⟩ : BufTy).Contents (Elt F))
  :: StableHlo.unary main_v94 main_v96 (broadcastInDim S8x2304x4x1 ![0, 1, 2] bcast_S8x2304x4_S8x2304x4x1_0_1_2 : (⟨S8x2304x4, .i32⟩ : BufTy).Contents (Elt F) → (⟨S8x2304x4x1, .i32⟩ : BufTy).Contents (Elt F))
  :: StableHlo.unary main_v95 main_v97 (broadcastInDim S8x2304x4x1 ![0, 1, 2] bcast_S8x2304x4_S8x2304x4x1_0_1_2 : (⟨S8x2304x4, .i32⟩ : BufTy).Contents (Elt F) → (⟨S8x2304x4x1, .i32⟩ : BufTy).Contents (Elt F))
  :: StableHlo.unary main_v93 main_v98 (broadcastInDim S8x2304x4x1 ![0, 1, 2] bcast_S8x2304x4_S8x2304x4x1_0_1_2 : (⟨S8x2304x4, .i32⟩ : BufTy).Contents (Elt F) → (⟨S8x2304x4x1, .i32⟩ : BufTy).Contents (Elt F))
  :: StableHlo.nary ![main_v96, main_v97, main_v98] main_v99 (fun u => concatenate S8x2304x4x3 3 [⟨S8x2304x4x1, u 0⟩, ⟨S8x2304x4x1, u 1⟩, ⟨S8x2304x4x1, u 2⟩] concatenates_S8x2304x4x1_S8x2304x4x1_S8x2304x4x1_S8x2304x4x3_d3)
  :: StableHlo.ternary main_v74 main_v99 main_v73 main_v100 ((fun x i u => Host.scatterAdd scatter_S8x2304x2304_S8x2304x4x3_S8x2304x4_n_012_012_3 x i u) : (⟨S8x2304x2304, .f32⟩ : BufTy).Contents (Elt F) → (⟨S8x2304x4x3, .i32⟩ : BufTy).Contents (Elt F) → (⟨S8x2304x4, .f32⟩ : BufTy).Contents (Elt F) → (⟨S8x2304x2304, .f32⟩ : BufTy).Contents (Elt F))
  :: [] )

/-- the three operations after it: reshape of main_arg0 into main_v101, the dot_general into main_v102, the reshape into main_v103 -/
abbrev opsTail : List (HloOp τ sig (Elt F)) :=
  [ StableHlo.reshape main_arg0 main_v101 rfl shapeCasts_S8x128x48x48_S8x128x2304,
    StableHlo.binary main_v101 main_v100 main_v102 ((fun l r => Host.dotGeneral dot_S8x128x2304_S8x2304x2304_S8x128x2304_2_2_1_1_0_0 none l r) : (⟨S8x128x2304, .f32⟩ : BufTy).Contents (Elt F) → (⟨S8x2304x2304, .f32⟩ : BufTy).Contents (Elt F) → (⟨S8x128x2304, .f32⟩ : BufTy).Contents (Elt F)),
    StableHlo.reshape main_v102 main_v103 rfl shapeCasts_S8x128x2304_S8x128x48x48 ]

/-- the whole line -/
abbrev ops : List (HloOp τ sig (Elt F)) := opsMat ++ opsTail

/-- @main is that line: its three windows in order, each call of the clipping function replaced by the function's six
    operations over the call's buffers; both sides are one chain of steps once sequencing is re-associated, which is
    definitional unfolding. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- every operation of the first stretch touches TensorCore references only -/
theorem opsMat_sub : (opsMat : List (HloOp τ sig (Elt F))).Forall fun op => op.bufs ⊆ tcRefs τ sig :=
  ⟨nullary_bufs_sub .., unary_bufs_sub .., reshape_bufs_sub .., nullary_bufs_sub .., unary_bufs_sub .., binary_bufs_sub ..,
    nullary_bufs_sub .., binary_bufs_sub .., unary_bufs_sub .., reshape_bufs_sub .., nullary_bufs_sub .., unary_bufs_sub ..,
    binary_bufs_sub .., nullary_bufs_sub .., binary_bufs_sub .., binary_bufs_sub .., unary_bufs_sub .., reshape_bufs_sub ..,
    nullary_bufs_sub .., unary_bufs_sub .., binary_bufs_sub .., nullary_bufs_sub .., binary_bufs_sub .., unary_bufs_sub ..,
    reshape_bufs_sub .., nullary_bufs_sub .., unary_bufs_sub .., binary_bufs_sub .., nullary_bufs_sub .., binary_bufs_sub ..,
    binary_bufs_sub .., binary_bufs_sub .., reshape_bufs_sub .., reshape_bufs_sub .., unary_bufs_sub .., reshape_bufs_sub ..,
    nullary_bufs_sub .., nullary_bufs_sub .., unary_bufs_sub .., unary_bufs_sub .., binary_bufs_sub .., unary_bufs_sub ..,
    unary_bufs_sub .., binary_bufs_sub .., unary_bufs_sub .., reshape_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., unary_bufs_sub ..,
    unary_bufs_sub .., unary_bufs_sub .., binary_bufs_sub .., unary_bufs_sub .., reshape_bufs_sub .., nullary_bufs_sub ..,
    unary_bufs_sub .., binary_bufs_sub .., unary_bufs_sub .., reshape_bufs_sub .., binary_bufs_sub .., unary_bufs_sub ..,
    binary_bufs_sub .., unary_bufs_sub .., reshape_bufs_sub .., unary_bufs_sub .., reshape_bufs_sub .., nullary_bufs_sub ..,
    unary_bufs_sub .., binary_bufs_sub .., nullary_bufs_sub .., unary_bufs_sub .., binary_bufs_sub .., binary_bufs_sub ..,
    nullary_bufs_sub .., unary_bufs_sub .., binary_bufs_sub .., binary_bufs_sub .., nullary_bufs_sub .., unary_bufs_sub ..,
    binary_bufs_sub .., binary_bufs_sub .., binary_bufs_sub .., unary_bufs_sub .., unary_bufs_sub .., unary_bufs_sub ..,
    unary_bufs_sub .., nary_bufs_sub .., unary_bufs_sub .., unary_bufs_sub .., unary_bufs_sub .., binary_bufs_sub ..,
    nullary_bufs_sub .., unary_bufs_sub .., nullary_bufs_sub .., unary_bufs_sub .., nullary_bufs_sub .., unary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., unary_bufs_sub ..,
    unary_bufs_sub .., unary_bufs_sub .., nary_bufs_sub .., ternary_bufs_sub ..⟩

/-- and so does every operation of the closing three -/
theorem opsTail_sub : (opsTail : List (HloOp τ sig (Elt F))).Forall fun op => op.bufs ⊆ tcRefs τ sig :=
  ⟨reshape_bufs_sub .., binary_bufs_sub .., reshape_bufs_sub ..⟩

theorem ops_sub : (ops : List (HloOp τ sig (Elt F))).Forall fun op => op.bufs ⊆ tcRefs τ sig :=
  List.forall_iff_forall_mem.mpr fun op h => (List.mem_append.mp h).elim
    (List.forall_iff_forall_mem.mp opsMat_sub op) (List.forall_iff_forall_mem.mp opsTail_sub op)

/-- On every device, for any float values, from any memory with zero counters: every weakly fair execution of @main
    terminates, and every final state has each TensorCore buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the line leaves in the result and in the arguments -/

/-- what the three closing operations compute from the argument x and the matrix M: x with its two pixel axes flattened,
    multiplied batch by batch with M contracted over M's last axis, and the pixel axis unflattened again -/
def refOut (x : (⟨S8x128x48x48, .f32⟩ : BufTy).Contents (Elt F)) (M : (⟨S8x2304x2304, .f32⟩ : BufTy).Contents (Elt F)) :
    (⟨S8x128x48x48, .f32⟩ : BufTy).Contents (Elt F) :=
  shapeCast S8x128x48x48
    (Host.dotGeneral dot_S8x128x2304_S8x2304x2304_S8x128x2304_2_2_1_1_0_0 none
      (shapeCast S8x128x2304 x shapeCasts_S8x128x48x48_S8x128x2304) M)
    shapeCasts_S8x128x2304_S8x128x48x48

/-- the closing three operations, from any contents W: the result buffer ends at refOut of the argument's and the matrix's contents -/
theorem tail_out (W : Valuation τ sig (Elt F)) :
    after opsTail W (main_v103 : DevRef τ sig) = refOut (W (main_arg0 : DevRef τ sig)) (W (main_v100 : DevRef τ sig)) := by
  after_results
  all_goals rfl

/-- the closing three operations write neither argument -/
theorem tail_arg0 (W : Valuation τ sig (Elt F)) : after opsTail W (main_arg0 : DevRef τ sig) = W (main_arg0 : DevRef τ sig) := by
  after_results
theorem tail_arg1 (W : Valuation τ sig (Elt F)) : after opsTail W (main_arg1 : DevRef τ sig) = W (main_arg1 : DevRef τ sig) := by
  after_results

/-- no operation of the first stretch writes the first argument -/
theorem mat_arg0 (V : Valuation τ sig (Elt F)) : after opsMat V (main_arg0 : DevRef τ sig) = V (main_arg0 : DevRef τ sig) :=
  after_of_forall_not_mem (b := Proc.devRef .tc main_arg0) _ _ (List.forall_iff_forall_mem.mp (by
    simp only [opsMat, List.Forall, nullary_writes, unary_writes, binary_writes, ternary_writes, reshape_writes, nary_writes,
      Finset.mem_singleton]
    repeat' apply And.intro
    all_goals exact devRef_ne_of_ne (by decide)))

/-- nor the second -/
theorem mat_arg1 (V : Valuation τ sig (Elt F)) : after opsMat V (main_arg1 : DevRef τ sig) = V (main_arg1 : DevRef τ sig) :=
  after_of_forall_not_mem (b := Proc.devRef .tc main_arg1) _ _ (List.forall_iff_forall_mem.mp (by
    simp only [opsMat, List.Forall, nullary_writes, unary_writes, binary_writes, ternary_writes, reshape_writes, nary_writes,
      Finset.mem_singleton]
    repeat' apply And.intro
    all_goals exact devRef_ne_of_ne (by decide)))

/-- the result: the fold splits at the scatter-add, the first stretch is left folded (its value at the matrix's buffer is
    the second operand of refOut) and leaves the argument as it was -/
theorem out_eq (V : Valuation τ sig (Elt F)) :
    after ops V (main_v103 : DevRef τ sig) = refOut (V (main_arg0 : DevRef τ sig)) (after opsMat V (main_v100 : DevRef τ sig)) := by
  show after (opsMat ++ opsTail) V _ = _
  rw [after_append, tail_out, mat_arg0]

theorem arg0_eq (V : Valuation τ sig (Elt F)) : after ops V (main_arg0 : DevRef τ sig) = V (main_arg0 : DevRef τ sig) := by
  show after (opsMat ++ opsTail) V _ = _
  rw [after_append, tail_arg0, mat_arg0]

theorem arg1_eq (V : Valuation τ sig (Elt F)) : after ops V (main_arg1 : DevRef τ sig) = V (main_arg1 : DevRef τ sig) := by
  show after (opsMat ++ opsTail) V _ = _
  rw [after_append, tail_arg1, mat_arg1]

end Cert.ReferenceIdeal.HRun

end
-- ==== Proof.RefValue.lean ====
import proofs.«151331_j73959336837140_1_alg».proof.Proof.RefRun
import proofs.«151331_j73959336837140_1_alg».proof.Proof.ValueAlg

/-! The reference's result on the extended reals, and its run stated over the launch memory.

At the ideal instance the reference's batched product is, entry by entry, the sum
`Σ_k X[n, r, k] · M[n, s, k]`; so the three closing operations compute, from the argument `x` and the
interpolation matrix `M`, the array whose entry at `(n, r, p, q)` is that sum for `x` flattened over its two
pixel axes, at the flat pixel `s` of `(p, q)`. The run of @main then says: the result buffer ends at that
function of the launched argument and of what the first stretch of operations leaves in `M`'s buffer, and
both arguments end as launched. -/

noncomputable section

namespace Cert.ReferenceIdeal.HValue

open Cert.ReferenceIdeal Cert.ReferenceIdeal.Gen Cert.ReferenceIdeal.HRun Cert.ValueAlg
open Idealize.ShloMosaic Idealize.ShloMosaic.TcCoe Idealize.SL.Sem Idealize.ShloMosaic.StableHlo Idealize.ShloMosaic.ValueIdx

/-- the reference's product as a whole array: entry j is the batched sum at j's three coordinates -/
theorem dot_eq (X : FVec Ideal S8x128x2304 .f32) (M : FVec Ideal S8x2304x2304 .f32) :
    Host.dotGeneral dot_S8x128x2304_S8x2304x2304_S8x128x2304_2_2_1_1_0_0 none X M = fun j => bmmAt X M (j 0) (j 1) (j 2) := by
  funext j
  obtain ⟨n, r, s, rfl⟩ : ∃ n r s, j = ix3 n r s := ⟨j 0, j 1, j 2, eq_ix3 j⟩
  exact dotGeneral_batched_apply X M n r s

/-- the three closing operations on the extended reals: the batched sums of the flattened argument against the matrix,
    read back at the four-axis shape -/
theorem refOut_eq (x : (⟨S8x128x48x48, .f32⟩ : BufTy).Contents (Elt Ideal)) (M : (⟨S8x2304x2304, .f32⟩ : BufTy).Contents (Elt Ideal)) :
    refOut (F := Ideal) x M
      = shapeCast S8x128x48x48
          (fun j => bmmAt (shapeCast S8x128x2304 x shapeCasts_S8x128x48x48_S8x128x2304) M (j 0) (j 1) (j 2))
          shapeCasts_S8x128x2304_S8x128x48x48 := by
  unfold refOut
  rw [dot_eq]

/-- On every device, from any memory with zero counters: every weakly fair execution of @main terminates with the
    result buffer at refOut of the launched argument and of the first stretch's value at the matrix's buffer, and
    with both arguments as launched. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v103)
          = refOut (m ((c.tc : Thread nD τ).loc main_arg0)) (after opsMat (launchContents m c) (main_v100 : DevRef τ sig))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v103).trans (out_eq (launchContents m c)),
      (h c main_arg0).trans (arg0_eq (launchContents m c)),
      (h c main_arg1).trans (arg1_eq (launchContents m c))⟩)
    (run_all m ρ)

/-- the run with the result dropped: @main terminates and both arguments end as launched -/
theorem ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (ref_run m ρ)

end Cert.ReferenceIdeal.HValue

end
-- ==== Proof.KernelOperands.lean ====
/-
  The two operands the region reads, as the host lines before it leave them.

  Of the host lines before the region the last three are: the reshape of the first argument array to
  `[8, 128, 2304]`, the rounding to bf16 of the scattered `[8, 2304, 2304]` array, and the rounding to bf16 of the
  reshaped argument. No earlier line writes any of the buffers these three read or write except the scattered array;
  and no line at all writes the first argument array. So the first operand is the rounded reshape of the first
  argument array as launched, and the second operand is the rounding of whatever the lines leave in the scattered
  array.
-/
import proofs.«151331_j73959336837140_1_alg».proof.Proof.Gen.KernelIdeal.Launch
import Idealize.ShloMosaic.Lib.StableHlo.Run

set_option maxRecDepth 16384

noncomputable section

namespace Cert.KernelIdeal.HOperands

open Cert.KernelIdeal Cert.KernelIdeal.Gen
open Idealize.ShloMosaic Idealize.ShloMosaic.TcCoe
open Idealize.SL Idealize.SL.Sem

variable {F : FTy → Type} [FloatOps F]

/-- The host lines before the region, in order. -/
abbrev opsK : List (HloOp τ sig (Elt F)) := List.flatten [hostOps0, hostOps0_1, hostOps0_2, hostOps0_3, hostOps0_4]
/-- All of them but the last three. -/
abbrev preK : List (HloOp τ sig (Elt F)) :=
  hostOps0 ++ (hostOps0_1 ++ (hostOps0_2 ++ (hostOps0_3 ++ (hostOps0_4 (F := F)).take 82)))
/-- The last three. -/
abbrev lastK : List (HloOp τ sig (Elt F)) := (hostOps0_4 (F := F)).drop 82

/-- Lines run one after the other: the second stretch runs from what the first leaves. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-- The lines are all but the last three, then the last three. -/
theorem opsK_split : (opsK : List (HloOp τ sig (Elt F))) = preK ++ lastK := by
  show hostOps0 ++ (hostOps0_1 ++ (hostOps0_2 ++ (hostOps0_3 ++ (hostOps0_4 ++ []))))
    = (hostOps0 ++ (hostOps0_1 ++ (hostOps0_2 ++ (hostOps0_3 ++ (hostOps0_4 (F := F)).take 82)))) ++ (hostOps0_4 (F := F)).drop 82
  rw [List.append_nil, List.append_assoc, List.append_assoc, List.append_assoc, List.append_assoc, List.take_append_drop]

/-- The last three lines, written out. -/
theorem lastK_eq : (lastK : List (HloOp τ sig (Elt F)))
    = [ StableHlo.reshape main_arg0 main_v101 rfl shapeCasts_S8x128x48x48_S8x128x2304,
        StableHlo.unary main_v100 main_v102 ((truncf .bf16 · bitsLt_bf16_f32) : (⟨S8x2304x2304, .f32⟩ : BufTy).Contents (Elt F) → (⟨S8x2304x2304, .bf16⟩ : BufTy).Contents (Elt F)),
        StableHlo.unary main_v101 main_v103 ((truncf .bf16 · bitsLt_bf16_f32) : (⟨S8x128x2304, .f32⟩ : BufTy).Contents (Elt F) → (⟨S8x128x2304, .bf16⟩ : BufTy).Contents (Elt F)) ] := rfl

set_option maxHeartbeats 4000000 in
/-- No host line before the region writes the first argument array: each writes its own result buffer. -/
theorem arg0_kept : ∀ op ∈ (opsK : List (HloOp τ sig (Elt F))), Proc.devRef .tc main_arg0 ∉ op.writes :=
  List.forall_iff_forall_mem.mp (by
    simp only [opsK, hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))

/-- The second operand: the last line but one rounds to bf16 what the lines leave in the scattered array; the line after
    it writes another buffer, and the reshape before it writes neither. -/
theorem m_operand (V : Valuation τ sig (Elt F)) :
    StableHlo.after opsK V (main_v102 : DevRef τ sig)
      = truncf .bf16 (StableHlo.after opsK V (main_v100 : DevRef τ sig)) bitsLt_bf16_f32 := by
  rw [opsK_split, after_append, lastK_eq]
  generalize StableHlo.after preK V = W
  simp only [StableHlo.after_cons, StableHlo.after_nil]
  rw [StableHlo.unary_result_ne (h := (by decide : main_v102 ≠ main_v103)), StableHlo.unary_result,
    StableHlo.reshape_result_ne (h := (by decide : main_v100 ≠ main_v101)),
    StableHlo.unary_result_ne (h := (by decide : main_v100 ≠ main_v103)),
    StableHlo.unary_result_ne (h := (by decide : main_v100 ≠ main_v102)),
    StableHlo.reshape_result_ne (h := (by decide : main_v100 ≠ main_v101))]

/-- The first operand: the last line rounds to bf16 what the reshape three lines from the end made of the first
    argument array, which no line writes. -/
theorem x_operand (V : Valuation τ sig (Elt F)) :
    StableHlo.after opsK V (main_v103 : DevRef τ sig)
      = truncf .bf16 (shapeCast S8x128x2304 (V (main_arg0 : DevRef τ sig)) shapeCasts_S8x128x48x48_S8x128x2304)
          bitsLt_bf16_f32 := by
  have hW : StableHlo.after preK V (main_arg0 : DevRef τ sig) = V (main_arg0 : DevRef τ sig) :=
    StableHlo.after_of_forall_not_mem preK V fun op hop =>
      arg0_kept op (by rw [opsK_split]; exact List.mem_append_left _ hop)
  rw [opsK_split, after_append, lastK_eq]
  simp only [StableHlo.after_cons, StableHlo.after_nil]
  rw [StableHlo.unary_result, StableHlo.unary_result_ne (h := (by decide : main_v101 ≠ main_v102)),
    StableHlo.reshape_result, hW]
  rfl

end Cert.KernelIdeal.HOperands

end
-- ==== Proof.LibConcatOperands.lean ====
/-
  A concatenation with its operands named.

  `concatenate t a [⟨s, p⟩, ⟨s, q⟩, …]` takes its operands inside a list of shape-tagged pairs. Written as a
  function of the operands themselves (`cat2`, `cat3`, `cat4`: two, three or four operands of one shape `s`
  along axis `a` of the result shape `t`), a rewrite of one operand is a rewrite of an ordinary argument.
  The three equations are the definitions read backwards.
-/
import Idealize.ShloMosaic.PureOps

noncomputable section

open Idealize.ShloMosaic

namespace Cert.ConcatOperands

variable {α : Type}

/-- Two operands of shape `s` side by side along axis `a` of `t`. -/
def cat2 (t : Shape) (a : Fin t.rank) (s : Shape) (h : Shape.Concatenates [s, s] t a) (p q : s.Idx → α) : t.Idx → α :=
  concatenate t a [⟨s, p⟩, ⟨s, q⟩] h

/-- Three operands of shape `s` along axis `a` of `t`. -/
def cat3 (t : Shape) (a : Fin t.rank) (s : Shape) (h : Shape.Concatenates [s, s, s] t a) (p q r : s.Idx → α) : t.Idx → α :=
  concatenate t a [⟨s, p⟩, ⟨s, q⟩, ⟨s, r⟩] h

/-- Four operands of shape `s` along axis `a` of `t`. -/
def cat4 (t : Shape) (a : Fin t.rank) (s : Shape) (h : Shape.Concatenates [s, s, s, s] t a) (p q r u : s.Idx → α) : t.Idx → α :=
  concatenate t a [⟨s, p⟩, ⟨s, q⟩, ⟨s, r⟩, ⟨s, u⟩] h

theorem cat2_eq (t : Shape) (a : Fin t.rank) (s : Shape) (h : Shape.Concatenates [s, s] t a) (p q : s.Idx → α) :
    concatenate t a [⟨s, p⟩, ⟨s, q⟩] h = cat2 t a s h p q := rfl

theorem cat3_eq (t : Shape) (a : Fin t.rank) (s : Shape) (h : Shape.Concatenates [s, s, s] t a) (p q r : s.Idx → α) :
    concatenate t a [⟨s, p⟩, ⟨s, q⟩, ⟨s, r⟩] h = cat3 t a s h p q r := rfl

theorem cat4_eq (t : Shape) (a : Fin t.rank) (s : Shape) (h : Shape.Concatenates [s, s, s, s] t a) (p q r u : s.Idx → α) :
    concatenate t a [⟨s, p⟩, ⟨s, q⟩, ⟨s, r⟩, ⟨s, u⟩] h = cat4 t a s h p q r u := rfl

end Cert.ConcatOperands

end
-- ==== Proof.LibNaryThree.lean ====
/-
  A host operation of three operands, read at its result.

  The n-ary operation's result is its function applied to the family of the operands' contents. For a literal family
  of three references the family is spelt out here operand by operand, each at its own reference, so that what each
  operand holds can be rewritten in turn (the four-operand form is the library's).
-/
import Idealize.ShloMosaic.Lib.StableHlo.Run

noncomputable section

open Idealize.ShloMosaic Idealize.ShloMosaic.StableHlo

namespace Cert.NaryThree

variable {sig : RefSig} {τ : Topo} {Val : EltTy → Type}
variable {x a b y : Ref sig .tc}

/-- The result of a three-operand operation: its function of the three operands' contents. -/
theorem nary3_result
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The same with the result reference left out of the rewriting index. -/
theorem nary3_result'
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

end Cert.NaryThree

end
-- ==== Proof.MatAgree.lean ====
/-
  The interpolation matrix is the same function of the sampling grid in both programs.

  Both programs build the matrix `M : 8×2304×2304` from the grid by the same straight line of host operations: the
  in-range mask, the clipped coordinates, their floors and fractional parts, the four bilinear weights, the four flat
  corner indices, and the scatter-add of the masked weights into a zero matrix. Read back operation by operation,
  each program's `M` is one closed term over the grid's contents — the two- and four-piece joins of the weights and
  the three-piece join of the index columns taken as functions of their operands, so that every operand is read in
  turn —, and the two terms are the same term.
-/
import proofs.«151331_j73959336837140_1_alg».proof.Proof.Gen.KernelIdeal.Launch
import proofs.«151331_j73959336837140_1_alg».proof.Proof.RefRun
import proofs.«151331_j73959336837140_1_alg».proof.Proof.LibConcatOperands
import proofs.«151331_j73959336837140_1_alg».proof.Proof.LibNaryThree
import Idealize.ShloMosaic.Lib.StableHlo.Run

set_option maxRecDepth 16384

noncomputable section

namespace Cert.MatAgree

open Cert.KernelIdeal Cert.KernelIdeal.Gen
open Idealize.ShloMosaic Idealize.ShloMosaic.TcCoe Idealize.SL.Sem Idealize.ShloMosaic.StableHlo
open Cert.ConcatOperands Cert.NaryThree

/-- Names a three-piece join in the goal: the operation `nary ![v0, v1, v2] y (the join along axis ax of pieces of
    shape s into shape t)` becomes the variable `op`, of which two facts are kept: at its own buffer `y` it leaves the
    join of what its three operands hold (`h`), and every other buffer it leaves alone (`hne`). -/
macro "name_join3 " op:ident h:ident hne:ident " : " top:term:max sg:term:max val:term:max v0:term:max v1:term:max v2:term:max y:term:max t:term:max ax:term:max s:term:max hc:term:max : tactic =>
  `(tactic| (
    generalize hop : (StableHlo.nary ![$v0, $v1, $v2] $y (fun u => concatenate $t $ax [⟨$s, u 0⟩, ⟨$s, u 1⟩, ⟨$s, u 2⟩] $hc) : HloOp $top $sg $val) = $op
    have $h : ∀ G : Valuation $top $sg $val, HloOp.result $op G (no_index (Proc.devRef .tc $y))
        = cat3 $t $ax $s $hc (G (Proc.devRef .tc $v0)) (G (Proc.devRef .tc $v1)) (G (Proc.devRef .tc $v2)) := by
      subst hop; intro G; exact (nary3_result _ _ _ G).trans rfl
    have $hne : ∀ (G : Valuation $top $sg $val) (r : Ref $sg .tc), r ≠ $y → HloOp.result $op G (no_index (Proc.devRef .tc r)) = G (Proc.devRef .tc r) := by
      subst hop; intro G r hr; exact nary_result_ne' _ _ _ _ G hr
    clear hop))

/-- The same for a four-piece join. -/
macro "name_join4 " op:ident h:ident hne:ident " : " top:term:max sg:term:max val:term:max v0:term:max v1:term:max v2:term:max v3:term:max y:term:max t:term:max ax:term:max s:term:max hc:term:max : tactic =>
  `(tactic| (
    generalize hop : (StableHlo.nary ![$v0, $v1, $v2, $v3] $y (fun u => concatenate $t $ax [⟨$s, u 0⟩, ⟨$s, u 1⟩, ⟨$s, u 2⟩, ⟨$s, u 3⟩] $hc) : HloOp $top $sg $val) = $op
    have $h : ∀ G : Valuation $top $sg $val, HloOp.result $op G (no_index (Proc.devRef .tc $y))
        = cat4 $t $ax $s $hc (G (Proc.devRef .tc $v0)) (G (Proc.devRef .tc $v1)) (G (Proc.devRef .tc $v2)) (G (Proc.devRef .tc $v3)) := by
      subst hop; intro G; exact (nary4_result _ _ _ G).trans rfl
    have $hne : ∀ (G : Valuation $top $sg $val) (r : Ref $sg .tc), r ≠ $y → HloOp.result $op G (no_index (Proc.devRef .tc r)) = G (Proc.devRef .tc r) := by
      subst hop; intro G r hr; exact nary_result_ne' _ _ _ _ G hr
    clear hop))

variable {F : FTy → Type} [FloatOps F]

set_option maxHeartbeats 16000000 in
/-- From valuations that agree on the grid, the reference's operations through the scatter-add and the kernel
    program's host operations before the region leave the same matrix. -/
theorem mat_agree (VK : Valuation τ sig (Elt F)) (VR : Valuation Cert.ReferenceIdeal.τ Cert.ReferenceIdeal.sig (Elt F))
    (h : VR (Cert.ReferenceIdeal.main_arg1 : DevRef Cert.ReferenceIdeal.τ Cert.ReferenceIdeal.sig) = VK (main_arg1 : DevRef τ sig)) :
    after Cert.ReferenceIdeal.HRun.opsMat VR (Cert.ReferenceIdeal.main_v100 : DevRef Cert.ReferenceIdeal.τ Cert.ReferenceIdeal.sig)
      = after (List.flatten [hostOps0, hostOps0_1, hostOps0_2, hostOps0_3, hostOps0_4]) VK (main_v100 : DevRef τ sig) := by
  simp only [Cert.ReferenceIdeal.HRun.opsMat, hostOps0, hostOps0_1, hostOps0_2, hostOps0_3, hostOps0_4, List.flatten_cons, List.flatten_nil, List.append_nil, List.cons_append, List.nil_append]
  simp only [after_cons, after_nil]
  -- the index columns' join and the weights' join, in the kernel program and in the reference
  name_join3 kIdx kIdx_at kIdx_off : τ sig (Elt F) main_v96 main_v97 main_v98 main_v99 S8x2304x4x3 3 S8x2304x4x1
    concatenates_S8x2304x4x1_S8x2304x4x1_S8x2304x4x1_S8x2304x4x3_d3
  name_join4 kWts kWts_at kWts_off : τ sig (Elt F) main_v65 main_v66 main_v67 main_v68 main_v69 S8x2304x4 2 S8x2304x1
    concatenates_S8x2304x1_S8x2304x1_S8x2304x1_S8x2304x1_S8x2304x4_d2
  name_join3 rIdx rIdx_at rIdx_off : Cert.ReferenceIdeal.τ Cert.ReferenceIdeal.sig (Elt F) Cert.ReferenceIdeal.main_v96 Cert.ReferenceIdeal.main_v97 Cert.ReferenceIdeal.main_v98 Cert.ReferenceIdeal.main_v99 Cert.ReferenceIdeal.S8x2304x4x3 3 Cert.ReferenceIdeal.S8x2304x4x1
    Cert.ReferenceIdeal.Facts₀.concatenates_S8x2304x4x1_S8x2304x4x1_S8x2304x4x1_S8x2304x4x3_d3
  name_join4 rWts rWts_at rWts_off : Cert.ReferenceIdeal.τ Cert.ReferenceIdeal.sig (Elt F) Cert.ReferenceIdeal.main_v65 Cert.ReferenceIdeal.main_v66 Cert.ReferenceIdeal.main_v67 Cert.ReferenceIdeal.main_v68 Cert.ReferenceIdeal.main_v69 Cert.ReferenceIdeal.S8x2304x4 2 Cert.ReferenceIdeal.S8x2304x1
    Cert.ReferenceIdeal.Facts₀.concatenates_S8x2304x1_S8x2304x1_S8x2304x1_S8x2304x1_S8x2304x4_d2
  -- every other operation's result, read in one pass
  simp (disch := decide) only [kIdx_at, kIdx_off, kWts_at, kWts_off, rIdx_at, rIdx_off, rWts_at, rWts_off, cat2_eq,
      nullary_result', unary_result', binary_result', ternary_result', quaternary_result', reshape_result',
      unaryIndexed_result', binaryIndexed_result',
      nullary_result_ne', unary_result_ne', binary_result_ne', ternary_result_ne', quaternary_result_ne', reshape_result_ne',
      unaryIndexed_result_ne', binaryIndexed_result_ne']
  rw [h]
  rfl

end Cert.MatAgree

end
-- ==== Proof.Bridge.lean ====
/-
  The two programs' results are one array.

  The idealized kernel ends with the reshape of `P`, where `P[n, r, s] = Σ_k X[n, r, k] · M[n, s, k]` over the two
  arrays its region stages: `X`, the argument `x` flattened to `8×128×2304` and narrowed to the 16-bit format, and
  `M`, the interpolation matrix narrowed likewise. On the extended reals a change of format is the identity, so `X` is
  the flattened `x` and `M` the matrix itself. The reference ends with the same reshape of its batched product of the
  flattened `x` with its own matrix, which is the same sum entry by entry; and the two matrices are one function of
  the grid. So from arguments that agree the results agree.
-/
import proofs.«151331_j73959336837140_1_alg».proof.Proof.KernelValue
import proofs.«151331_j73959336837140_1_alg».proof.Proof.KernelOperands
import proofs.«151331_j73959336837140_1_alg».proof.Proof.RefValue
import proofs.«151331_j73959336837140_1_alg».proof.Proof.MatAgree

set_option maxRecDepth 16384

noncomputable section

namespace Cert.Bridge

open Idealize.ShloMosaic Idealize.ShloMosaic.TcCoe Idealize.SL.Sem Idealize.ShloMosaic.StableHlo
open Cert.ValueAlg

/-- From memories that agree on `x` and on the grid, what the reference leaves in its result is what the kernel
    program leaves in its own. -/
theorem result_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.HRun.refOut (F := Ideal) (m' ((c.tc : Thread Cert.ReferenceIdeal.nD Cert.ReferenceIdeal.τ).loc Cert.ReferenceIdeal.main_arg0))
        (after Cert.ReferenceIdeal.HRun.opsMat (launchContents m' c) (Cert.ReferenceIdeal.main_v100 : DevRef Cert.ReferenceIdeal.τ Cert.ReferenceIdeal.sig))
      = shapeCast Cert.KernelIdeal.S8x128x48x48 (Cert.KernelIdeal.HValue.prod3 m c) Cert.KernelIdeal.Facts₀.shapeCasts_S8x128x2304_S8x128x48x48 := by
  rw [Cert.ReferenceIdeal.HValue.refOut_eq]
  have hx : Cert.KernelIdeal.HFrame.V m c Cert.KernelIdeal.main_v103
      = shapeCast Cert.ReferenceIdeal.S8x128x2304 (m' ((c.tc : Thread Cert.ReferenceIdeal.nD Cert.ReferenceIdeal.τ).loc Cert.ReferenceIdeal.main_arg0)) Cert.ReferenceIdeal.Facts₀.shapeCasts_S8x128x48x48_S8x128x2304 := by
    rw [h0]
    exact (Cert.KernelIdeal.HOperands.x_operand (F := Ideal) (fun b => m (c, b))).trans rfl
  have hm : Cert.KernelIdeal.HFrame.V m c Cert.KernelIdeal.main_v102
      = after Cert.ReferenceIdeal.HRun.opsMat (launchContents m' c) (Cert.ReferenceIdeal.main_v100 : DevRef Cert.ReferenceIdeal.τ Cert.ReferenceIdeal.sig) :=
    ((Cert.KernelIdeal.HOperands.m_operand (F := Ideal) (fun b => m (c, b))).trans rfl).trans
      (Cert.MatAgree.mat_agree (F := Ideal) (fun b => m (c, b)) (launchContents m' c) h1).symm
  unfold Cert.KernelIdeal.HValue.prod3
  rw [hx, hm]

end Cert.Bridge

end
-- ==== Proof.lean ====
/-
  Equivalence of a bilinear-resampling kernel and its reference, over the extended reals.

  Both programs first build, from the sampling grid, a dense interpolation matrix `M : 8×2304×2304` by the same host
  operations (each output pixel's four clipped bilinear corners and their weights, masked where the grid leaves the
  image for some batch, scatter-added into a zero matrix). The kernel program then narrows `x` (flattened to
  `8×128×2304`) and `M` to a 16-bit format and multiplies them batch by batch on the matrix unit, contracting the last
  axis of both, into a zero accumulator; the reference multiplies the flattened `x` and `M` by one batched
  contraction of the same axes. On the extended reals a change of format is the identity and both products are the
  plain sum `Σ_k x[n, r, k] · M[n, s, k]`, so the results are equal entry by entry — with no use of finiteness, sums
  of extended reals being commutative and associative.

  The frames: each kernel program is host operations, one pipelined region of eight grid points whose body loads two
  whole blocks and stores one, and a closing reshape; the reference is a straight line of host operations.
  The ideal pass rewrote nothing, so the kernel's idealization is its own text read over the extended reals.
-/
import proofs.«151331_j73959336837140_1_alg».proof.Defs
import proofs.«151331_j73959336837140_1_alg».proof.Proof.Gen.Kernel
import proofs.«151331_j73959336837140_1_alg».proof.Proof.Gen.KernelIdeal
import proofs.«151331_j73959336837140_1_alg».proof.Proof.Gen.ReferenceIdeal
import proofs.«151331_j73959336837140_1_alg».proof.Proof.Gen.Pre_finite_inputs
import proofs.«151331_j73959336837140_1_alg».proof.Proof.FrameK
import proofs.«151331_j73959336837140_1_alg».proof.Proof.FrameKI
import proofs.«151331_j73959336837140_1_alg».proof.Proof.KernelValue
import proofs.«151331_j73959336837140_1_alg».proof.Proof.RefValue
import proofs.«151331_j73959336837140_1_alg».proof.Proof.Bridge

noncomputable section

namespace Cert.Proof

open Idealize.ShloMosaic Idealize.SL.Sem

/-- The word-level kernel program runs to the end, faults nowhere and keeps its arguments. -/
theorem frame_k : Cert.frame_Kernel := fun m ρ _ => Cert.Kernel.HFrame.frame m ρ

/-- So does its reading over the extended reals. -/
theorem frame_ki : Cert.frame_KernelIdeal := fun m ρ _ => Cert.KernelIdeal.HFrame.frame m ρ

/-- The reference is a straight line of host operations that writes no argument. -/
theorem frame_ri : Cert.frame_ReferenceIdeal := fun m ρ _ => Cert.ReferenceIdeal.HValue.ref_frame m ρ

/-- The ideal pass rewrote no operation. -/
theorem preserves : Cert.preserves_Kernel_KernelIdeal := trivial

/-- Both programs end, the kernel program's result at the reshape of `Σ_k x[n, r, k] · M[n, s, k]` and the reference's
    at the same array. -/
theorem algebraic : Cert.algebraic_KernelIdeal_ReferenceIdeal := by
  intro m ρ m' ρ' _ hagree
  refine ⟨fun c => shapeCast Cert.KernelIdeal.S8x128x48x48 (Cert.KernelIdeal.HValue.prod3 m c)
      Cert.KernelIdeal.Facts₀.shapeCasts_S8x128x2304_S8x128x48x48, Cert.KernelIdeal.HValue.kernel_run m ρ, ?_⟩
  exact (θ_run Cert.ReferenceIdeal.defs _ _).mono
    (fun _ h c => ⟨(h c).1.trans (Cert.Bridge.result_agree m m' c (hagree c).1 (hagree c).2), (h c).2⟩)
    (Cert.ReferenceIdeal.HValue.ref_run m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
